-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S144x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S144x128 .f32 := Host.absf main_arg5
  let main_cst_6 : FVec F S_ .f32 := constant S_ .f32 0x7F800000#32
  let main_v20 : FVec F S144x128 .f32 := broadcastInDim S144x128 ![] bcast_S_S144x128 main_cst_6
  let main_v21 : IVec S144x128 1 := cmpf .olt main_v19 main_v20
  let main_c_7 : IVec S_ 1 := constantI S_ 1 1#1
  let main_v22 : IVec S_ 1 := (fun x v => Host.reduce IntOp.andi x v reducesTo_S144x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x16 .f32) (main_arg3 : FVec F S144x128 .f32) (main_arg4 : FVec F S128 .f32) (main_arg5 : FVec F S144x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S1x800000 : Shape := ⟨2, ![1, 800000]⟩
abbrev S800000 : Shape := ⟨1, ![800000]⟩
abbrev S128x128 : Shape := ⟨2, ![128, 128]⟩
abbrev S16x128 : Shape := ⟨2, ![16, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S8000x16 : Shape := ⟨2, ![8000, 16]⟩
abbrev S8000x128 : Shape := ⟨2, ![8000, 128]⟩
abbrev S1x128 : Shape := ⟨2, ![1, 128]⟩

abbrev nBuf : Space → Nat
  | .hbm => 49
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S144x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S128x128, .f32⟩
  | .hbm, ⟨12, _⟩ => ⟨S16x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S128x128, .f32⟩
  | .hbm, ⟨31, _⟩ => ⟨S16x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8000x16, .f32⟩
  | .local _ .vmem, ⟨6, _⟩ => ⟨S8000x16, .f32⟩
  | .local _ .vmem, ⟨7, _⟩ => ⟨S16x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S8000x16, .f32⟩
  | .local _ .vmem, ⟨23, _⟩ => ⟨S8000x16, .f32⟩
  | .local _ .vmem, ⟨24, _⟩ => ⟨S16x128, .f32⟩
  | .local _ .vmem, ⟨25, _⟩ => ⟨S8000x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S144x128_S128x128_0_0 : S144x128.Slices ![0, 0] S128x128
  slices_S144x128_S16x128_128_0 : S144x128.Slices ![128, 0] S16x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S8000x16_S16x128_S8000x128_1_0_0_1_n_n_wf : DotDims.WF S8000x16 S16x128 S8000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S800000x16.size a
  hwx1_0 : ∀ i : grid1.Coords, EltTy.bits .f32 = 32 ∨ (Rect.block (s := S800000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x16.size a ≤ S800000x16.size a
  hwx4_0 : ∀ i : grid4.Coords, EltTy.bits .f32 = 32 ∨ (Rect.block (s := S800000x16) S8000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x128.size a ≤ S16x128.size a
  hwx4_1 : ∀ i : grid4.Coords, EltTy.bits .f32 = 32 ∨ (Rect.block (s := S16x128) S16x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x128.size a ≤ S800000x128.size a
  hwx4_3 : ∀ i : grid4.Coords, EltTy.bits .f32 = 32 ∨ (Rect.block (s := S800000x128) S8000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg2) S8000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S16x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v29) S8000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S8000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v33) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S1x800000 : Shape := ⟨2, ![1, 800000]⟩
abbrev S800000 : Shape := ⟨1, ![800000]⟩
abbrev S128x128 : Shape := ⟨2, ![128, 128]⟩
abbrev S16x128 : Shape := ⟨2, ![16, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S144x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S128x128, .f32⟩
  | .hbm, ⟨12, _⟩ => ⟨S16x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S16x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S144x128_S128x128_0_0 : S144x128.Slices ![0, 0] S128x128
  slices_S144x128_S16x128_128_0 : S144x128.Slices ![128, 0] S16x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  dot_S800000x16_S16x128_S800000x128_1_0_0_1_n_n_wf : DotDims.WF S800000x16 S16x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.RowProducts.lean ====
/-
  Products of a matrix's rows with a weight matrix over the extended reals, read index by index, and what a gather of
  rows does to such a product.

  `rowsTimes X W (p, o) = ∑ k, X (p, k) · W (k, o)`: each row of the result depends on the same row of `X` only. So
  taking rows of the product is the product of the taken rows, whichever rows are taken (the start indices may repeat,
  be negative or lie past the end: the gather clamps them, the same way for `X` and for `X · W`). No law of the
  extended reals beyond reading a sum at an index is used: the terms of each sum are the same, in the same order.
  The host's `dot_general` with one contracted axis is `rowsTimes`; a bias row added to every row and the clamp at
  zero are stated index by index here as well.
-/
import Idealize.ShloMosaic.PureOps.Ideal.Laws
import Idealize.ShloMosaic.Lib.ValueIdx

noncomputable section

open scoped BigOperators
open Idealize.ShloMosaic Idealize.ShloMosaic.ValueIdx

namespace Cert.RowProducts

/-- Rows of `X` times the weights `W`: entry `(p, o)` is `∑ k, X (p, k) · W (k, o)`. -/
def rowsTimes {M K N : ℕ} (X : FVec Ideal ⟨2, ![M, K]⟩ .f32) (W : FVec Ideal ⟨2, ![K, N]⟩ .f32) :
    FVec Ideal ⟨2, ![M, N]⟩ .f32 :=
  fun i => ∑ k : Fin K, X (ix2 (i 0) k) * W (ix2 k (i 1))

theorem rowsTimes_apply {M K N : ℕ} (X : FVec Ideal ⟨2, ![M, K]⟩ .f32) (W : FVec Ideal ⟨2, ![K, N]⟩ .f32)
    (p : Fin M) (o : Fin N) : rowsTimes X W (ix2 p o) = ∑ k : Fin K, X (ix2 p k) * W (ix2 k o) := rfl

/-- The host's `dot_general` that contracts the left operand's axis 1 with the right operand's axis 0 (the four facts
    about the record's index maps say so) is `rowsTimes`: the sum over the record's contraction index set, re-indexed
    by that set's one coordinate. -/
theorem dotGeneral_eq_rowsTimes {M K N : ℕ}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ .f32) (B : FVec Ideal ⟨2, ![K, N]⟩ .f32) :
    Host.dotGeneral d prec A B = rowsTimes A B := by
  funext j
  obtain ⟨p, o, rfl⟩ : ∃ (p : Fin M) (o : Fin N), j = ix2 p o := ⟨j 0, j 1, eq_ix2 j⟩
  rw [rowsTimes_apply]
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

/-- Taking rows commutes with the product. For a gather `g` of whole rows — the operand's row read at result index
    `(e, q)` does not depend on `q` (`hrow`), and the column read is `q` (`hcol`) — the rows of `X · W` taken at
    `idx` are the rows of `X` taken at `idx`, times `W`. -/
theorem gather_rowsTimes {M N E w : ℕ} {si : Shape}
    (g : GatherDims ⟨2, ![M, N]⟩ si ⟨2, ![E, N]⟩)
    (hrow : ∀ (idx : IVec si w) (e : Fin E) (q q' : Fin N),
      (g.operandIdx (ix2 e q) idx 0).val = (g.operandIdx (ix2 e q') idx 0).val)
    (hcol : ∀ (idx : IVec si w) (e : Fin E) (q : Fin N), (g.operandIdx (ix2 e q) idx 1).val = q.val)
    (X : FVec Ideal ⟨2, ![M, N]⟩ .f32) (W : FVec Ideal ⟨2, ![N, N]⟩ .f32) (idx : IVec si w) :
    Host.gather g (rowsTimes X W) idx = rowsTimes (Host.gather g X idx : FVec Ideal ⟨2, ![E, N]⟩ .f32) W := by
  funext j
  obtain ⟨e, q, rfl⟩ : ∃ (e : Fin E) (q : Fin N), j = ix2 e q := ⟨j 0, j 1, eq_ix2 j⟩
  rw [rowsTimes_apply]
  show rowsTimes X W (g.operandIdx (ix2 e q) idx) = ∑ k : Fin N, X (g.operandIdx (ix2 e k) idx) * W (ix2 k q)
  unfold rowsTimes
  refine Finset.sum_congr rfl fun k _ => ?_
  have e1 : (ix2 (g.operandIdx (ix2 e q) idx 0) k : (⟨2, ![M, N]⟩ : Shape).Idx) = g.operandIdx (ix2 e k) idx :=
    funext fun a => Fin.ext (by
      match a with
      | ⟨0, _⟩ => exact hrow idx e q k
      | ⟨1, _⟩ => exact (hcol idx e k).symm)
  have e2 : (ix2 k (g.operandIdx (ix2 e q) idx 1) : (⟨2, ![N, N]⟩ : Shape).Idx) = ix2 k q :=
    funext fun a => Fin.ext (by
      match a with
      | ⟨0, _⟩ => rfl
      | ⟨1, _⟩ => exact hcol idx e q)
  rw [e1, e2]

/-- A bias row added to every row: entry `(p, o)` is `A (p, o) + b o`. -/
def plusRow {M N : ℕ} (A : FVec Ideal ⟨2, ![M, N]⟩ .f32) (b : FVec Ideal ⟨1, ![N]⟩ .f32) : FVec Ideal ⟨2, ![M, N]⟩ .f32 :=
  fun i => A i + b (ix1 (i 1))

/-- A bias given as a one-row matrix, added to every row: entry `(p, o)` is `A (p, o) + b (0, o)`. -/
def plusOneRow {M N : ℕ} (A : FVec Ideal ⟨2, ![M, N]⟩ .f32) (b : FVec Ideal ⟨2, ![1, N]⟩ .f32) : FVec Ideal ⟨2, ![M, N]⟩ .f32 :=
  fun i => A i + b (ix2 0 (i 1))

/-- The clamp at the float zero, entry by entry. -/
def clampZero {M N : ℕ} (A : FVec Ideal ⟨2, ![M, N]⟩ .f32) : FVec Ideal ⟨2, ![M, N]⟩ .f32 :=
  fun i => max (A i) (Ideal.ofBits .f32 0x00000000#32)

end Cert.RowProducts

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.NodeProduct0.lean ====
/-
  The node projection of layer one: what kernel region 0 leaves in its result array.

  The region walks ten blocks of 5000 rows. At block `t` the body multiplies rows `5000 t … 5000 t + 4999` of the node
  features by the whole 128 × 128 weight matrix (the change of float format is the identity on the extended reals, the
  accumulator is the zero splat) and stores the product as block `t` of the result. A row of a product depends on the
  same row of the left factor only, so block `t` of the result is block `t` of `rowsTimes` of the whole arrays, and the
  ten blocks tile the 50000 rows: the result array is `rowsTimes` of the two arrays the region finds.
-/
import proofs.«149655_j77962246357191_1_alg».proof.Proof.Gen.KernelIdeal.Frame
import proofs.«149655_j77962246357191_1_alg».proof.Proof.RowProducts
import proofs.«149655_j77962246357191_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.NodeProduct0

open Cert.KernelIdeal Cert.KernelIdeal.Gen Cert.RowProducts

variable (V : (c : Dev nD) → (b : Ref sig .tc) → Buf (Elt Ideal) ((c : Thread nD τ).loc b))

theorem zeroOffsets : (![0, 0] : Fin 2 → Nat) = fun _ => 0 := funext fun a => by fin_cases a <;> rfl

/-! ## The matmul record's index maps: rows from the left operand, columns from the right, one contracted axis -/

theorem lhs_axis0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's stored value -/

/-- What the body stores, from the two blocks it loads: the block of rows times the weights. -/
theorem stored_eq (x0 : Vec Ideal S5000x128 .f32) (x1 : Vec Ideal S128x128 .f32) :
    k0_pay1 (F := Ideal) x0 x1 = rowsTimes (x0 : FVec Ideal S5000x128 .f32) (x1 : FVec Ideal S128x128 .f32) := by
  funext j
  obtain ⟨p, o, rfl⟩ : ∃ (p : Fin 5000) (o : Fin 128), j = ix2 p o := ⟨j 0, j 1, eq_ix2 j⟩
  rw [rowsTimes_apply]
  unfold k0_pay1
  simp only [shapeCast_self]
  exact Cert.LibPlainMatmul.matmul_zero_apply dot_S5000x128_S128x128_S5000x128_1_0_0_1_n_n none rfl rfl lhs_axis0 lhs_axis1 rhs_axis0 rhs_axis1 _ _ p o

/-! ## From the blocks to the array -/

/-- The index maps over the grid: the row-block index is the point, the column-block index is zero; the weights' block
    is always block (0, 0). -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays. -/
theorem flushed_eq (c : Dev nD) (t : Fin cfg0.N) :
    (dat0 V c).flushed 2 t = ((cfg0.win 2).blk t).view.read (Elt Ideal)
      (rowsTimes (V c main_arg0 : FVec Ideal S50000x128 .f32) (V c main_v4 : FVec Ideal S128x128 .f32)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  rw [stored_eq]
  obtain ⟨e0, e1, e2, e3, e4, e5⟩ := blockIndices t
  funext j
  obtain ⟨p, o, rfl⟩ : ∃ (p : Fin 5000) (o : Fin 128), j = ix2 p o := ⟨j 0, j 1, eq_ix2 j⟩
  show rowsTimes (iblk0 V c 0 t) (iblk0 V c 1 t) (ix2 p o)
      = rowsTimes (V c main_arg0) (V c main_v4) (((cfg0.win 2).blk t).view.emb (ix2 p o))
  unfold rowsTimes
  refine Finset.sum_congr rfl fun k _ => ?_
  have hrows : iblk0 V c 0 t (ix2 p k)
      = (V c main_arg0 : FVec Ideal S50000x128 .f32) (ix2 ((((cfg0.win 2).blk t).view.emb (ix2 p o)) 0) k) := by
    unfold iblk0
    rw [View.read_apply]
    show V c main_arg0 _ = V c main_arg0 _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hweights : iblk0 V c 1 t (ix2 k o)
      = (V c main_v4 : FVec Ideal S128x128 .f32) (ix2 k ((((cfg0.win 2).blk t).view.emb (ix2 p o)) 1)) := by
    unfold iblk0
    rw [View.read_apply]
    show V c main_v4 _ = V c main_v4 _
    refine congrArg (V c main_v4) (funext fun a => Fin.ext ?_)
    match a with
    | ⟨0, _⟩ => show win0_1.index t (0 : Fin 2) * 128 + 1 * k.val = k.val; omega
    | ⟨1, _⟩ => show win0_1.index t (1 : Fin 2) * 128 + 1 * o.val = win0_2.index t (1 : Fin 2) * 128 + 1 * o.val; omega
  exact congrArg₂ (· * ·) hrows hweights

/-- An index of the result array lies in point `t`'s block iff each coordinate lies in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v6).slice (win0_2.rect t)).set ↔ _
  rw [View.set_slice_whole, Rect.mem_set_unit]
  exact Iff.rfl

/-- THE RESULT ARRAY after the region: the rows of the array it finds at `main_arg0` times the weights it finds at
    `main_v4`. Row `r` is written by point `r / 5000`. -/
theorem result_eq (c : Dev nD) :
    (dat0 V c).arrAt 2 cfg0.N
      = rowsTimes (V c main_arg0 : FVec Ideal S50000x128 .f32) (V c main_v4 : FVec Ideal S128x128 .f32) :=
  (dat0 V c).arrAt_eq_of_cover 2 _ (fun t _ => flushed_eq V c t) fun i => by
    have hi0 : (i 0).val < 50000 := (i 0).isLt
    have hi1 : (i 1).val < 128 := (i 1).isLt
    have hN : cfg0.N = 10 := N_0
    have ht : (i 0).val / 5000 < cfg0.N := by rw [hN]; omega
    refine ⟨⟨(i 0).val / 5000, ht⟩, flush0_2 _, ?_⟩
    rw [mem_block]
    obtain ⟨-, -, -, -, e4, e5⟩ := blockIndices ⟨(i 0).val / 5000, ht⟩
    intro a
    match a with
    | ⟨0, _⟩ =>
      show win0_2.index ⟨(i 0).val / 5000, ht⟩ (0 : Fin 2) * 5000 ≤ (i 0).val
        ∧ (i 0).val < win0_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win0_2.index ⟨(i 0).val / 5000, ht⟩ (1 : Fin 2) * 128 ≤ (i 1).val
        ∧ (i 1).val < win0_2.index ⟨(i 0).val / 5000, ht⟩ (1 : Fin 2) * 128 + 128
      rw [e5]; omega

end Cert.KernelIdeal.NodeProduct0

end
-- ==== Proof.EdgeMessages1.lean ====
/-
  The edge messages of layer one: what kernel region 1 leaves in its result array.

  The region walks a hundred blocks of 8000 edges. At block `t` the body multiplies rows `8000 t … 8000 t + 7999` of the
  edge attributes by the whole 16 × 128 weight matrix (the change of float format is the identity on the extended reals,
  the accumulator is the zero splat), adds the same rows of the gathered node projections, the gathered rows first, and
  stores the sum as block `t` of the result. Both terms at a row depend on that row only, so block `t` of the result is
  block `t` of "gathered rows plus `rowsTimes` of the attributes and the weights" of the whole arrays, and the hundred
  blocks tile the 800000 rows.
-/
import proofs.«149655_j77962246357191_1_alg».proof.Proof.Gen.KernelIdeal.Frame
import proofs.«149655_j77962246357191_1_alg».proof.Proof.RowProducts
import proofs.«149655_j77962246357191_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.EdgeMessages1

open Cert.KernelIdeal Cert.KernelIdeal.Gen Cert.RowProducts

variable (V : (c : Dev nD) → (b : Ref sig .tc) → Buf (Elt Ideal) ((c : Thread nD τ).loc b))

theorem zeroOffsets : (![0, 0] : Fin 2 → Nat) = fun _ => 0 := funext fun a => by fin_cases a <;> rfl

/-! ## The matmul record's index maps: rows from the left operand, columns from the right, one contracted axis -/

theorem lhs_axis0 (i : S8000x128.Idx) (q : dot_S8000x16_S16x128_S8000x128_1_0_0_1_n_n.contr.Idx) : (dot_S8000x16_S16x128_S8000x128_1_0_0_1_n_n.lhsIdx i q 0).val = (i 0).val := by
  unfold DotDims.lhsIdx
  rw [dif_neg (show ¬(0 : Fin S8000x16.rank) ∈ dot_S8000x16_S16x128_S8000x128_1_0_0_1_n_n.lhsBatch by decide), dif_pos (show (0 : Fin S8000x16.rank) ∈ dot_S8000x16_S16x128_S8000x128_1_0_0_1_n_n.lhsNonContracting by decide)]
  rfl
theorem lhs_axis1 (i : S8000x128.Idx) (q : dot_S8000x16_S16x128_S8000x128_1_0_0_1_n_n.contr.Idx) : (dot_S8000x16_S16x128_S8000x128_1_0_0_1_n_n.lhsIdx i q 1).val = (q ⟨0, by decide⟩).val :=
  dot_S8000x16_S16x128_S8000x128_1_0_0_1_n_n.lhsIdx_val_of_single rfl i q
theorem rhs_axis0 (i : S8000x128.Idx) (q : dot_S8000x16_S16x128_S8000x128_1_0_0_1_n_n.contr.Idx) : (dot_S8000x16_S16x128_S8000x128_1_0_0_1_n_n.rhsIdx i q 0).val = (q ⟨0, by decide⟩).val :=
  dot_S8000x16_S16x128_S8000x128_1_0_0_1_n_n.rhsIdx_val_of_single rfl i q
theorem rhs_axis1 (i : S8000x128.Idx) (q : dot_S8000x16_S16x128_S8000x128_1_0_0_1_n_n.contr.Idx) : (dot_S8000x16_S16x128_S8000x128_1_0_0_1_n_n.rhsIdx i q 1).val = (i 1).val := by
  unfold DotDims.rhsIdx
  rw [dif_neg (show ¬(1 : Fin S16x128.rank) ∈ dot_S8000x16_S16x128_S8000x128_1_0_0_1_n_n.rhsBatch by decide), dif_pos (show (1 : Fin S16x128.rank) ∈ dot_S8000x16_S16x128_S8000x128_1_0_0_1_n_n.rhsNonContracting by decide)]
  rfl

/-! ## The body's stored value -/

/-- What the body stores, from the three blocks it loads: the gathered rows plus the attribute rows times the weights. -/
theorem stored_eq (x0 : Vec Ideal S8000x16 .f32) (x1 : Vec Ideal S16x128 .f32) (x2 : Vec Ideal S8000x128 .f32) :
    k1_pay1 (F := Ideal) x0 x1 x2
      = addf (x2 : FVec Ideal S8000x128 .f32) (rowsTimes (x0 : FVec Ideal S8000x16 .f32) (x1 : FVec Ideal S16x128 .f32)) := by
  funext j
  obtain ⟨p, o, rfl⟩ : ∃ (p : Fin 8000) (o : Fin 128), j = ix2 p o := ⟨j 0, j 1, eq_ix2 j⟩
  unfold k1_pay1
  simp only [shapeCast_self]
  exact congrArg (x2 (ix2 p o) + ·)
    (Cert.LibPlainMatmul.matmul_zero_apply dot_S8000x16_S16x128_S8000x128_1_0_0_1_n_n none rfl rfl lhs_axis0 lhs_axis1 rhs_axis0 rhs_axis1 _ _ p o)

/-! ## From the blocks to the array -/

/-- The index maps over the grid: the attributes', the gathered rows' and the result's row-block index is the point, the
    column-block index is zero; the weights' block is always block (0, 0). -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The messages as one function of the three whole arrays. -/
abbrev messages (EA : FVec Ideal S800000x16 .f32) (We : FVec Ideal S16x128 .f32) (Yg : FVec Ideal S800000x128 .f32) :
    FVec Ideal S800000x128 .f32 :=
  addf Yg (rowsTimes EA We)

/-- What point `t` writes back is block `t` of the messages of the whole arrays. -/
theorem flushed_eq (c : Dev nD) (t : Fin cfg1.N) :
    (dat1 V c).flushed 3 t = ((cfg1.win 3).blk t).view.read (Elt Ideal)
      (messages (V c main_arg2) (V c main_v5) (V c main_v13)) := by
  show (cfg1.win 3).cut (grid1.coords t) ((dat1 V c).after 3 t) = _
  rw [after1_3]
  unfold out1_3
  rw [View.canon_unit_zero zeroOffsets]
  simp only [View.ld_unit_zero (S := S8000x16) zeroOffsets, View.ld_unit_zero (S := S16x128) zeroOffsets,
    View.ld_unit_zero (S := S8000x128) zeroOffsets]
  rw [stored_eq]
  obtain ⟨e0, e1, e2, e3, e4, e5, e6, e7⟩ := blockIndices t
  funext j
  obtain ⟨p, o, rfl⟩ : ∃ (p : Fin 8000) (o : Fin 128), j = ix2 p o := ⟨j 0, j 1, eq_ix2 j⟩
  show FloatOps.addf (F := Ideal) (φ := .f32) (iblk1 V c 2 t (ix2 p o))
        (rowsTimes (iblk1 V c 0 t) (iblk1 V c 1 t) (ix2 p o))
      = FloatOps.addf (F := Ideal) (φ := .f32)
        ((V c main_v13 : FVec Ideal S800000x128 .f32) (((cfg1.win 3).blk t).view.emb (ix2 p o)))
        (rowsTimes (V c main_arg2) (V c main_v5) (((cfg1.win 3).blk t).view.emb (ix2 p o)))
  have hgathered : iblk1 V c 2 t (ix2 p o)
      = (V c main_v13 : FVec Ideal S800000x128 .f32) (((cfg1.win 3).blk t).view.emb (ix2 p o)) := by
    unfold iblk1
    rw [View.read_apply]
    show V c main_v13 _ = V c main_v13 _
    refine congrArg (V c main_v13) (funext fun a => Fin.ext ?_)
    match a with
    | ⟨0, _⟩ => show win1_2.index t (0 : Fin 2) * 8000 + 1 * p.val = win1_3.index t (0 : Fin 2) * 8000 + 1 * p.val; omega
    | ⟨1, _⟩ => show win1_2.index t (1 : Fin 2) * 128 + 1 * o.val = win1_3.index t (1 : Fin 2) * 128 + 1 * o.val; omega
  refine congrArg₂ (FloatOps.addf (F := Ideal) (φ := .f32)) hgathered ?_
  unfold rowsTimes
  refine Finset.sum_congr rfl fun k _ => ?_
  have hattrs : iblk1 V c 0 t (ix2 p k)
      = (V c main_arg2 : FVec Ideal S800000x16 .f32) (ix2 ((((cfg1.win 3).blk t).view.emb (ix2 p o)) 0) k) := by
    unfold iblk1
    rw [View.read_apply]
    show V c main_arg2 _ = V c main_arg2 _
    refine congrArg (V c main_arg2) (funext fun a => Fin.ext ?_)
    match a with
    | ⟨0, _⟩ => show win1_0.index t (0 : Fin 2) * 8000 + 1 * p.val = win1_3.index t (0 : Fin 2) * 8000 + 1 * p.val; omega
    | ⟨1, _⟩ => show win1_0.index t (1 : Fin 2) * 16 + 1 * k.val = k.val; omega
  have hweights : iblk1 V c 1 t (ix2 k o)
      = (V c main_v5 : FVec Ideal S16x128 .f32) (ix2 k ((((cfg1.win 3).blk t).view.emb (ix2 p o)) 1)) := by
    unfold iblk1
    rw [View.read_apply]
    show V c main_v5 _ = V c main_v5 _
    refine congrArg (V c main_v5) (funext fun a => Fin.ext ?_)
    match a with
    | ⟨0, _⟩ => show win1_1.index t (0 : Fin 2) * 16 + 1 * k.val = k.val; omega
    | ⟨1, _⟩ => show win1_1.index t (1 : Fin 2) * 128 + 1 * o.val = win1_3.index t (1 : Fin 2) * 128 + 1 * o.val; omega
  exact congrArg₂ (· * ·) hattrs hweights

/-- An index of the result array lies in point `t`'s block iff each coordinate lies in the block's range on its axis. -/
theorem mem_block (t : Fin cfg1.N) (i : S800000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v14).slice (win1_3.rect t)).set ↔ _
  rw [View.set_slice_whole, Rect.mem_set_unit]
  exact Iff.rfl

/-- THE RESULT ARRAY after the region: the gathered rows it finds at `main_v13` plus the attribute rows it finds at
    `main_arg2` times the weights it finds at `main_v5`. Row `r` is written by point `r / 8000`. -/
theorem result_eq (c : Dev nD) :
    (dat1 V c).arrAt 3 cfg1.N = messages (V c main_arg2) (V c main_v5) (V c main_v13) :=
  (dat1 V c).arrAt_eq_of_cover 3 _ (fun t _ => flushed_eq V c t) fun i => by
    have hi0 : (i 0).val < 800000 := (i 0).isLt
    have hi1 : (i 1).val < 128 := (i 1).isLt
    have hN : cfg1.N = 100 := N_1
    have ht : (i 0).val / 8000 < cfg1.N := by rw [hN]; omega
    refine ⟨⟨(i 0).val / 8000, ht⟩, flush1_3 _, ?_⟩
    rw [mem_block]
    obtain ⟨-, -, -, -, -, -, e6, e7⟩ := blockIndices ⟨(i 0).val / 8000, ht⟩
    intro a
    match a with
    | ⟨0, _⟩ =>
      show win1_3.index ⟨(i 0).val / 8000, ht⟩ (0 : Fin 2) * 8000 ≤ (i 0).val
        ∧ (i 0).val < win1_3.index ⟨(i 0).val / 8000, ht⟩ (0 : Fin 2) * 8000 + 8000
      rw [e6]; show (i 0).val / 8000 * 8000 ≤ (i 0).val ∧ (i 0).val < (i 0).val / 8000 * 8000 + 8000; omega
    | ⟨1, _⟩ =>
      show win1_3.index ⟨(i 0).val / 8000, ht⟩ (1 : Fin 2) * 128 ≤ (i 1).val
        ∧ (i 1).val < win1_3.index ⟨(i 0).val / 8000, ht⟩ (1 : Fin 2) * 128 + 128
      rw [e7]; omega

end Cert.KernelIdeal.EdgeMessages1

end
-- ==== Proof.BiasClamp2.lean ====
/-
  The bias step of layer one: what kernel region 2 leaves in its result array.

  The region walks ten blocks of 5000 rows of the aggregated messages. At block `t` the body adds the one-row bias to
  every row of the block, clamps each entry at the float zero, and stores block `t` of the result. Entry `(p, o)` of a block reads entry
  `(p, o)` of the aggregate's block and entry `(0, o)` of the bias row, so block `t` of the result is block `t` of the same
  entrywise function of the whole arrays, and the ten blocks tile the 50000 rows.
-/
import proofs.«149655_j77962246357191_1_alg».proof.Proof.Gen.KernelIdeal.Frame
import proofs.«149655_j77962246357191_1_alg».proof.Proof.RowProducts
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.BiasClamp2

open Cert.KernelIdeal Cert.KernelIdeal.Gen Cert.RowProducts

variable (V : (c : Dev nD) → (b : Ref sig .tc) → Buf (Elt Ideal) ((c : Thread nD τ).loc b))

theorem zeroOffsets : (![0, 0] : Fin 2 → Nat) = fun _ => 0 := funext fun a => by fin_cases a <;> rfl

/-! ## The body's stored value -/

/-- The bias row spread over the block's rows, read at `(p, o)`, is the row's entry `o`. -/
theorem spread_apply (x1 : Vec Ideal S1x128 .f32) (p : Fin 5000) (o : Fin 128) :
    broadcastTo S5000x128 x1 broadcasts_S1x128_S5000x128 (ix2 p o) = x1 (ix2 0 o) :=
  broadcastTo_apply x1 broadcasts_S1x128_S5000x128 (ix2 p o) (ix2 0 o) (fun a => match a with
    | ⟨0, _⟩ => by show (0 : Nat) = if (1 : Nat) = 1 then 0 else _; rw [if_pos rfl]
    | ⟨1, _⟩ => by show o.val = if (128 : Nat) = 1 then 0 else o.val; rw [if_neg (by decide)])

/-- What the body stores, from the two blocks it loads. -/
theorem stored_eq (x0 : Vec Ideal S5000x128 .f32) (x1 : Vec Ideal S1x128 .f32) :
    k2_pay1 (F := Ideal) x0 x1 = clampZero (plusOneRow (x0 : FVec Ideal S5000x128 .f32) (x1 : FVec Ideal S1x128 .f32)) := by
  funext j
  obtain ⟨p, o, rfl⟩ : ∃ (p : Fin 5000) (o : Fin 128), j = ix2 p o := ⟨j 0, j 1, eq_ix2 j⟩
  unfold k2_pay1
  simp only [shapeCast_self]
  exact congrArg (fun z : EReal => max (x0 (ix2 p o) + z) (Ideal.ofBits .f32 0x00000000#32)) (spread_apply x1 p o)

/-! ## From the blocks to the array -/

/-- The index maps over the grid: the aggregate's and the result's row-block index is the point, the column-block index
    is zero; the bias row's block is always block (0, 0). -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the entrywise function of the whole arrays. -/
theorem flushed_eq (c : Dev nD) (t : Fin cfg2.N) :
    (dat2 V c).flushed 2 t = ((cfg2.win 2).blk t).view.read (Elt Ideal)
      (clampZero (plusOneRow (V c main_v17 : FVec Ideal S50000x128 .f32) (V c main_v18 : FVec Ideal S1x128 .f32))) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S1x128) zeroOffsets]
  rw [stored_eq]
  obtain ⟨e0, e1, e2, e3, e4, e5⟩ := blockIndices t
  funext j
  obtain ⟨p, o, rfl⟩ : ∃ (p : Fin 5000) (o : Fin 128), j = ix2 p o := ⟨j 0, j 1, eq_ix2 j⟩
  show clampZero (plusOneRow (iblk2 V c 0 t) (iblk2 V c 1 t)) (ix2 p o)
      = clampZero (plusOneRow (V c main_v17) (V c main_v18)) (((cfg2.win 2).blk t).view.emb (ix2 p o))
  have hagg : iblk2 V c 0 t (ix2 p o)
      = (V c main_v17 : FVec Ideal S50000x128 .f32) (((cfg2.win 2).blk t).view.emb (ix2 p o)) := by
    unfold iblk2
    rw [View.read_apply]
    show V c main_v17 _ = V c main_v17 _
    refine congrArg (V c main_v17) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * o.val = win2_2.index t (1 : Fin 2) * 128 + 1 * o.val; omega
  have hrow : iblk2 V c 1 t (ix2 0 o)
      = (V c main_v18 : FVec Ideal S1x128 .f32) (ix2 0 ((((cfg2.win 2).blk t).view.emb (ix2 p o)) 1)) := by
    unfold iblk2
    rw [View.read_apply]
    show V c main_v18 _ = V c main_v18 _
    refine congrArg (V c main_v18) (funext fun a => Fin.ext ?_)
    match a with
    | ⟨0, _⟩ => show win2_1.index t (0 : Fin 2) * 1 + 1 * 0 = 0; omega
    | ⟨1, _⟩ => show win2_1.index t (1 : Fin 2) * 128 + 1 * o.val = win2_2.index t (1 : Fin 2) * 128 + 1 * o.val; omega
  unfold clampZero plusOneRow
  exact congrArg₂ (fun a b : EReal => max (a + b) (Ideal.ofBits .f32 0x00000000#32)) hagg hrow

/-- An index of the result array lies in point `t`'s block iff each coordinate lies in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v19).slice (win2_2.rect t)).set ↔ _
  rw [View.set_slice_whole, Rect.mem_set_unit]
  exact Iff.rfl

/-- THE RESULT ARRAY after the region: the aggregate it finds at `main_v17` plus the bias row it finds at `main_v18`,
    clamped at zero. Row `r` is written by point `r / 5000`. -/
theorem result_eq (c : Dev nD) :
    (dat2 V c).arrAt 2 cfg2.N
      = clampZero (plusOneRow (V c main_v17 : FVec Ideal S50000x128 .f32) (V c main_v18 : FVec Ideal S1x128 .f32)) :=
  (dat2 V c).arrAt_eq_of_cover 2 _ (fun t _ => flushed_eq V c t) fun i => by
    have hi0 : (i 0).val < 50000 := (i 0).isLt
    have hi1 : (i 1).val < 128 := (i 1).isLt
    have hN : cfg2.N = 10 := N_2
    have ht : (i 0).val / 5000 < cfg2.N := by rw [hN]; omega
    refine ⟨⟨(i 0).val / 5000, ht⟩, flush2_2 _, ?_⟩
    rw [mem_block]
    obtain ⟨-, -, -, -, e4, e5⟩ := blockIndices ⟨(i 0).val / 5000, ht⟩
    intro a
    match a with
    | ⟨0, _⟩ =>
      show win2_2.index ⟨(i 0).val / 5000, ht⟩ (0 : Fin 2) * 5000 ≤ (i 0).val
        ∧ (i 0).val < win2_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win2_2.index ⟨(i 0).val / 5000, ht⟩ (1 : Fin 2) * 128 ≤ (i 1).val
        ∧ (i 1).val < win2_2.index ⟨(i 0).val / 5000, ht⟩ (1 : Fin 2) * 128 + 128
      rw [e5]; omega

end Cert.KernelIdeal.BiasClamp2

end
-- ==== Proof.NodeProduct3.lean ====
/-
  The node projection of layer two: what kernel region 3 leaves in its result array.

  The region walks ten blocks of 5000 rows. At block `t` the body multiplies rows `5000 t … 5000 t + 4999` of the node
  features by the whole 128 × 128 weight matrix (the change of float format is the identity on the extended reals, the
  accumulator is the zero splat) and stores the product as block `t` of the result. A row of a product depends on the
  same row of the left factor only, so block `t` of the result is block `t` of `rowsTimes` of the whole arrays, and the
  ten blocks tile the 50000 rows: the result array is `rowsTimes` of the two arrays the region finds.
-/
import proofs.«149655_j77962246357191_1_alg».proof.Proof.Gen.KernelIdeal.Frame
import proofs.«149655_j77962246357191_1_alg».proof.Proof.RowProducts
import proofs.«149655_j77962246357191_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.NodeProduct3

open Cert.KernelIdeal Cert.KernelIdeal.Gen Cert.RowProducts

variable (V : (c : Dev nD) → (b : Ref sig .tc) → Buf (Elt Ideal) ((c : Thread nD τ).loc b))

theorem zeroOffsets : (![0, 0] : Fin 2 → Nat) = fun _ => 0 := funext fun a => by fin_cases a <;> rfl

/-! ## The matmul record's index maps: rows from the left operand, columns from the right, one contracted axis -/

theorem lhs_axis0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's stored value -/

/-- What the body stores, from the two blocks it loads: the block of rows times the weights. -/
theorem stored_eq (x0 : Vec Ideal S5000x128 .f32) (x1 : Vec Ideal S128x128 .f32) :
    k3_pay1 (F := Ideal) x0 x1 = rowsTimes (x0 : FVec Ideal S5000x128 .f32) (x1 : FVec Ideal S128x128 .f32) := by
  funext j
  obtain ⟨p, o, rfl⟩ : ∃ (p : Fin 5000) (o : Fin 128), j = ix2 p o := ⟨j 0, j 1, eq_ix2 j⟩
  rw [rowsTimes_apply]
  unfold k3_pay1
  simp only [shapeCast_self]
  exact Cert.LibPlainMatmul.matmul_zero_apply dot_S5000x128_S128x128_S5000x128_1_0_0_1_n_n none rfl rfl lhs_axis0 lhs_axis1 rhs_axis0 rhs_axis1 _ _ p o

/-! ## From the blocks to the array -/

/-- The index maps over the grid: the row-block index is the point, the column-block index is zero; the weights' block
    is always block (0, 0). -/
theorem blockIndices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the whole arrays. -/
theorem flushed_eq (c : Dev nD) (t : Fin cfg3.N) :
    (dat3 V c).flushed 2 t = ((cfg3.win 2).blk t).view.read (Elt Ideal)
      (rowsTimes (V c main_v19 : FVec Ideal S50000x128 .f32) (V c main_v20 : FVec Ideal S128x128 .f32)) := by
  show (cfg3.win 2).cut (grid3.coords t) ((dat3 V c).after 2 t) = _
  rw [after3_2]
  unfold out3_2
  rw [View.canon_unit_zero zeroOffsets]
  simp only [View.ld_unit_zero (S := S5000x128) zeroOffsets, View.ld_unit_zero (S := S128x128) zeroOffsets]
  rw [stored_eq]
  obtain ⟨e0, e1, e2, e3, e4, e5⟩ := blockIndices t
  funext j
  obtain ⟨p, o, rfl⟩ : ∃ (p : Fin 5000) (o : Fin 128), j = ix2 p o := ⟨j 0, j 1, eq_ix2 j⟩
  show rowsTimes (iblk3 V c 0 t) (iblk3 V c 1 t) (ix2 p o)
      = rowsTimes (V c main_v19) (V c main_v20) (((cfg3.win 2).blk t).view.emb (ix2 p o))
  unfold rowsTimes
  refine Finset.sum_congr rfl fun k _ => ?_
  have hrows : iblk3 V c 0 t (ix2 p k)
      = (V c main_v19 : FVec Ideal S50000x128 .f32) (ix2 ((((cfg3.win 2).blk t).view.emb (ix2 p o)) 0) k) := by
    unfold iblk3
    rw [View.read_apply]
    show V c main_v19 _ = V c main_v19 _
    refine congrArg (V c main_v19) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  have hweights : iblk3 V c 1 t (ix2 k o)
      = (V c main_v20 : FVec Ideal S128x128 .f32) (ix2 k ((((cfg3.win 2).blk t).view.emb (ix2 p o)) 1)) := by
    unfold iblk3
    rw [View.read_apply]
    show V c main_v20 _ = V c main_v20 _
    refine congrArg (V c main_v20) (funext fun a => Fin.ext ?_)
    match a with
    | ⟨0, _⟩ => show win3_1.index t (0 : Fin 2) * 128 + 1 * k.val = k.val; omega
    | ⟨1, _⟩ => show win3_1.index t (1 : Fin 2) * 128 + 1 * o.val = win3_2.index t (1 : Fin 2) * 128 + 1 * o.val; omega
  exact congrArg₂ (· * ·) hrows hweights

/-- An index of the result array lies in point `t`'s block iff each coordinate lies in the block's range on its axis. -/
theorem mem_block (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v22).slice (win3_2.rect t)).set ↔ _
  rw [View.set_slice_whole, Rect.mem_set_unit]
  exact Iff.rfl

/-- THE RESULT ARRAY after the region: the rows of the array it finds at `main_v19` times the weights it finds at
    `main_v20`. Row `r` is written by point `r / 5000`. -/
theorem result_eq (c : Dev nD) :
    (dat3 V c).arrAt 2 cfg3.N
      = rowsTimes (V c main_v19 : FVec Ideal S50000x128 .f32) (V c main_v20 : FVec Ideal S128x128 .f32) :=
  (dat3 V c).arrAt_eq_of_cover 2 _ (fun t _ => flushed_eq V c t) fun i => by
    have hi0 : (i 0).val < 50000 := (i 0).isLt
    have hi1 : (i 1).val < 128 := (i 1).isLt
    have hN : cfg3.N = 10 := N_3
    have ht : (i 0).val / 5000 < cfg3.N := by rw [hN]; omega
    refine ⟨⟨(i 0).val / 5000, ht⟩, flush3_2 _, ?_⟩
    rw [mem_block]
    obtain ⟨-, -, -, -, e4, e5⟩ := blockIndices ⟨(i 0).val / 5000, ht⟩
    intro a
    match a with
    | ⟨0, _⟩ =>
      show win3_2.index ⟨(i 0).val / 5000, ht⟩ (0 : Fin 2) * 5000 ≤ (i 0).val
        ∧ (i 0).val < win3_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win3_2.index ⟨(i 0).val / 5000, ht⟩ (1 : Fin 2) * 128 ≤ (i 1).val
        ∧ (i 1).val < win3_2.index ⟨(i 0).val / 5000, ht⟩ (1 : Fin 2) * 128 + 128
      rw [e5]; omega

end Cert.KernelIdeal.NodeProduct3

end
-- ==== Proof.EdgeMessages4.lean ====
/-
  The edge messages of layer two: what kernel region 4 leaves in its result array.

  The region walks a hundred blocks of 8000 edges. At block `t` the body multiplies rows `8000 t … 8000 t + 7999` of the
  edge attributes by the whole 16 × 128 weight matrix (the change of float format is the identity on the extended reals,
  the accumulator is the zero splat), adds the same rows of the gathered node projections, the gathered rows first, and
  stores the sum as block `t` of the result. Both terms at a row depend on that row only, so block `t` of the result is
  block `t` of "gathered rows plus `rowsTimes` of the attributes and the weights" of the whole arrays, and the hundred
  blocks tile the 800000 rows.
-/
import proofs.«149655_j77962246357191_1_alg».proof.Proof.Gen.KernelIdeal.Frame
import proofs.«149655_j77962246357191_1_alg».proof.Proof.RowProducts
import proofs.«149655_j77962246357191_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.EdgeMessages4

open Cert.KernelIdeal Cert.KernelIdeal.Gen Cert.RowProducts

variable (V : (c : Dev nD) → (b : Ref sig .tc) → Buf (Elt Ideal) ((c : Thread nD τ).loc b))

theorem zeroOffsets : (![0, 0] : Fin 2 → Nat) = fun _ => 0 := funext fun a => by fin_cases a <;> rfl

/-! ## The matmul record's index maps: rows from the left operand, columns from the right, one contracted axis -/

theorem lhs_axis0 (i : S8000x128.Idx) (q : dot_S8000x16_S16x128_S8000x128_1_0_0_1_n_n.contr.Idx) : (dot_S8000x16_S16x128_S8000x128_1_0_0_1_n_n.lhsIdx i q 0).val = (i 0).val := by
  unfold DotDims.lhsIdx
  rw [dif_neg (show ¬(0 : Fin S8000x16.rank) ∈ dot_S8000x16_S16x128_S8000x128_1_0_0_1_n_n.lhsBatch by decide), dif_pos (show (0 : Fin S8000x16.rank) ∈ dot_S8000x16_S16x128_S8000x128_1_0_0_1_n_n.lhsNonContracting by decide)]
  rfl
theorem lhs_axis1 (i : S8000x128.Idx) (q : dot_S8000x16_S16x128_S8000x128_1_0_0_1_n_n.contr.Idx) : (dot_S8000x16_S16x128_S8000x128_1_0_0_1_n_n.lhsIdx i q 1).val = (q ⟨0, by decide⟩).val :=
  dot_S8000x16_S16x128_S8000x128_1_0_0_1_n_n.lhsIdx_val_of_single rfl i q
theorem rhs_axis0 (i : S8000x128.Idx) (q : dot_S8000x16_S16x128_S8000x128_1_0_0_1_n_n.contr.Idx) : (dot_S8000x16_S16x128_S8000x128_1_0_0_1_n_n.rhsIdx i q 0).val = (q ⟨0, by decide⟩).val :=
  dot_S8000x16_S16x128_S8000x128_1_0_0_1_n_n.rhsIdx_val_of_single rfl i q
theorem rhs_axis1 (i : S8000x128.Idx) (q : dot_S8000x16_S16x128_S8000x128_1_0_0_1_n_n.contr.Idx) : (dot_S8000x16_S16x128_S8000x128_1_0_0_1_n_n.rhsIdx i q 1).val = (i 1).val := by
  unfold DotDims.rhsIdx
  rw [dif_neg (show ¬(1 : Fin S16x128.rank) ∈ dot_S8000x16_S16x128_S8000x128_1_0_0_1_n_n.rhsBatch by decide), dif_pos (show (1 : Fin S16x128.rank) ∈ dot_S8000x16_S16x128_S8000x128_1_0_0_1_n_n.rhsNonContracting by decide)]
  rfl

/-! ## The body's stored value -/

/-- What the body stores, from the three blocks it loads: the gathered rows plus the attribute rows times the weights. -/
theorem stored_eq (x0 : Vec Ideal S8000x16 .f32) (x1 : Vec Ideal S16x128 .f32) (x2 : Vec Ideal S8000x128 .f32) :
    k4_pay1 (F := Ideal) x0 x1 x2
      = addf (x2 : FVec Ideal S8000x128 .f32) (rowsTimes (x0 : FVec Ideal S8000x16 .f32) (x1 : FVec Ideal S16x128 .f32)) := by
  funext j
  obtain ⟨p, o, rfl⟩ : ∃ (p : Fin 8000) (o : Fin 128), j = ix2 p o := ⟨j 0, j 1, eq_ix2 j⟩
  unfold k4_pay1
  simp only [shapeCast_self]
  exact congrArg (x2 (ix2 p o) + ·)
    (Cert.LibPlainMatmul.matmul_zero_apply dot_S8000x16_S16x128_S8000x128_1_0_0_1_n_n none rfl rfl lhs_axis0 lhs_axis1 rhs_axis0 rhs_axis1 _ _ p o)

/-! ## From the blocks to the array -/

/-- The index maps over the grid: the attributes', the gathered rows' and the result's row-block index is the point, the
    column-block index is zero; the weights' block is always block (0, 0). -/
theorem blockIndices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The messages as one function of the three whole arrays. -/
abbrev messages (EA : FVec Ideal S800000x16 .f32) (We : FVec Ideal S16x128 .f32) (Yg : FVec Ideal S800000x128 .f32) :
    FVec Ideal S800000x128 .f32 :=
  addf Yg (rowsTimes EA We)

/-- What point `t` writes back is block `t` of the messages of the whole arrays. -/
theorem flushed_eq (c : Dev nD) (t : Fin cfg4.N) :
    (dat4 V c).flushed 3 t = ((cfg4.win 3).blk t).view.read (Elt Ideal)
      (messages (V c main_arg2) (V c main_v21) (V c main_v29)) := by
  show (cfg4.win 3).cut (grid4.coords t) ((dat4 V c).after 3 t) = _
  rw [after4_3]
  unfold out4_3
  rw [View.canon_unit_zero zeroOffsets]
  simp only [View.ld_unit_zero (S := S8000x16) zeroOffsets, View.ld_unit_zero (S := S16x128) zeroOffsets,
    View.ld_unit_zero (S := S8000x128) zeroOffsets]
  rw [stored_eq]
  obtain ⟨e0, e1, e2, e3, e4, e5, e6, e7⟩ := blockIndices t
  funext j
  obtain ⟨p, o, rfl⟩ : ∃ (p : Fin 8000) (o : Fin 128), j = ix2 p o := ⟨j 0, j 1, eq_ix2 j⟩
  show FloatOps.addf (F := Ideal) (φ := .f32) (iblk4 V c 2 t (ix2 p o))
        (rowsTimes (iblk4 V c 0 t) (iblk4 V c 1 t) (ix2 p o))
      = FloatOps.addf (F := Ideal) (φ := .f32)
        ((V c main_v29 : FVec Ideal S800000x128 .f32) (((cfg4.win 3).blk t).view.emb (ix2 p o)))
        (rowsTimes (V c main_arg2) (V c main_v21) (((cfg4.win 3).blk t).view.emb (ix2 p o)))
  have hgathered : iblk4 V c 2 t (ix2 p o)
      = (V c main_v29 : FVec Ideal S800000x128 .f32) (((cfg4.win 3).blk t).view.emb (ix2 p o)) := by
    unfold iblk4
    rw [View.read_apply]
    show V c main_v29 _ = V c main_v29 _
    refine congrArg (V c main_v29) (funext fun a => Fin.ext ?_)
    match a with
    | ⟨0, _⟩ => show win4_2.index t (0 : Fin 2) * 8000 + 1 * p.val = win4_3.index t (0 : Fin 2) * 8000 + 1 * p.val; omega
    | ⟨1, _⟩ => show win4_2.index t (1 : Fin 2) * 128 + 1 * o.val = win4_3.index t (1 : Fin 2) * 128 + 1 * o.val; omega
  refine congrArg₂ (FloatOps.addf (F := Ideal) (φ := .f32)) hgathered ?_
  unfold rowsTimes
  refine Finset.sum_congr rfl fun k _ => ?_
  have hattrs : iblk4 V c 0 t (ix2 p k)
      = (V c main_arg2 : FVec Ideal S800000x16 .f32) (ix2 ((((cfg4.win 3).blk t).view.emb (ix2 p o)) 0) k) := by
    unfold iblk4
    rw [View.read_apply]
    show V c main_arg2 _ = V c main_arg2 _
    refine congrArg (V c main_arg2) (funext fun a => Fin.ext ?_)
    match a with
    | ⟨0, _⟩ => show win4_0.index t (0 : Fin 2) * 8000 + 1 * p.val = win4_3.index t (0 : Fin 2) * 8000 + 1 * p.val; omega
    | ⟨1, _⟩ => show win4_0.index t (1 : Fin 2) * 16 + 1 * k.val = k.val; omega
  have hweights : iblk4 V c 1 t (ix2 k o)
      = (V c main_v21 : FVec Ideal S16x128 .f32) (ix2 k ((((cfg4.win 3).blk t).view.emb (ix2 p o)) 1)) := by
    unfold iblk4
    rw [View.read_apply]
    show V c main_v21 _ = V c main_v21 _
    refine congrArg (V c main_v21) (funext fun a => Fin.ext ?_)
    match a with
    | ⟨0, _⟩ => show win4_1.index t (0 : Fin 2) * 16 + 1 * k.val = k.val; omega
    | ⟨1, _⟩ => show win4_1.index t (1 : Fin 2) * 128 + 1 * o.val = win4_3.index t (1 : Fin 2) * 128 + 1 * o.val; omega
  exact congrArg₂ (· * ·) hattrs hweights

/-- An index of the result array lies in point `t`'s block iff each coordinate lies in the block's range on its axis. -/
theorem mem_block (t : Fin cfg4.N) (i : S800000x128.Idx) :
    i ∈ ((cfg4.win 3).blk t).view.set ↔ ∀ a : Fin 2, win4_3.index t a * S8000x128.size a ≤ (i a).val
      ∧ (i a).val < win4_3.index t a * S8000x128.size a + S8000x128.size a := by
  show i ∈ ((View.whole main_v30).slice (win4_3.rect t)).set ↔ _
  rw [View.set_slice_whole, Rect.mem_set_unit]
  exact Iff.rfl

/-- THE RESULT ARRAY after the region: the gathered rows it finds at `main_v29` plus the attribute rows it finds at
    `main_arg2` times the weights it finds at `main_v21`. Row `r` is written by point `r / 8000`. -/
theorem result_eq (c : Dev nD) :
    (dat4 V c).arrAt 3 cfg4.N = messages (V c main_arg2) (V c main_v21) (V c main_v29) :=
  (dat4 V c).arrAt_eq_of_cover 3 _ (fun t _ => flushed_eq V c t) fun i => by
    have hi0 : (i 0).val < 800000 := (i 0).isLt
    have hi1 : (i 1).val < 128 := (i 1).isLt
    have hN : cfg4.N = 100 := N_4
    have ht : (i 0).val / 8000 < cfg4.N := by rw [hN]; omega
    refine ⟨⟨(i 0).val / 8000, ht⟩, flush4_3 _, ?_⟩
    rw [mem_block]
    obtain ⟨-, -, -, -, -, -, e6, e7⟩ := blockIndices ⟨(i 0).val / 8000, ht⟩
    intro a
    match a with
    | ⟨0, _⟩ =>
      show win4_3.index ⟨(i 0).val / 8000, ht⟩ (0 : Fin 2) * 8000 ≤ (i 0).val
        ∧ (i 0).val < win4_3.index ⟨(i 0).val / 8000, ht⟩ (0 : Fin 2) * 8000 + 8000
      rw [e6]; show (i 0).val / 8000 * 8000 ≤ (i 0).val ∧ (i 0).val < (i 0).val / 8000 * 8000 + 8000; omega
    | ⟨1, _⟩ =>
      show win4_3.index ⟨(i 0).val / 8000, ht⟩ (1 : Fin 2) * 128 ≤ (i 1).val
        ∧ (i 1).val < win4_3.index ⟨(i 0).val / 8000, ht⟩ (1 : Fin 2) * 128 + 128
      rw [e7]; omega

end Cert.KernelIdeal.EdgeMessages4

end
-- ==== Proof.BiasAdd5.lean ====
/-
  The bias step of layer two: what kernel region 5 leaves in its result array.

  The region walks ten blocks of 5000 rows of the aggregated messages. At block `t` the body adds the one-row bias to
  every row of the block and stores block `t` of the result. Entry `(p, o)` of a block reads entry
  `(p, o)` of the aggregate's block and entry `(0, o)` of the bias row, so block `t` of the result is block `t` of the same
  entrywise function of the whole arrays, and the ten blocks tile the 50000 rows.
-/
import proofs.«149655_j77962246357191_1_alg».proof.Proof.Gen.KernelIdeal.Frame
import proofs.«149655_j77962246357191_1_alg».proof.Proof.RowProducts
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.BiasAdd5

open Cert.KernelIdeal Cert.KernelIdeal.Gen Cert.RowProducts

variable (V : (c : Dev nD) → (b : Ref sig .tc) → Buf (Elt Ideal) ((c : Thread nD τ).loc b))

theorem zeroOffsets : (![0, 0] : Fin 2 → Nat) = fun _ => 0 := funext fun a => by fin_cases a <;> rfl

/-! ## The body's stored value -/

/-- The bias row spread over the block's rows, read at `(p, o)`, is the row's entry `o`. -/
theorem spread_apply (x1 : Vec Ideal S1x128 .f32) (p : Fin 5000) (o : Fin 128) :
    broadcastTo S5000x128 x1 broadcasts_S1x128_S5000x128 (ix2 p o) = x1 (ix2 0 o) :=
  broadcastTo_apply x1 broadcasts_S1x128_S5000x128 (ix2 p o) (ix2 0 o) (fun a => match a with
    | ⟨0, _⟩ => by show (0 : Nat) = if (1 : Nat) = 1 then 0 else _; rw [if_pos rfl]
    | ⟨1, _⟩ => by show o.val = if (128 : Nat) = 1 then 0 else o.val; rw [if_neg (by decide)])

/-- What the body stores, from the two blocks it loads. -/
theorem stored_eq (x0 : Vec Ideal S5000x128 .f32) (x1 : Vec Ideal S1x128 .f32) :
    k5_pay1 (F := Ideal) x0 x1 = plusOneRow (x0 : FVec Ideal S5000x128 .f32) (x1 : FVec Ideal S1x128 .f32) := by
  funext j
  obtain ⟨p, o, rfl⟩ : ∃ (p : Fin 5000) (o : Fin 128), j = ix2 p o := ⟨j 0, j 1, eq_ix2 j⟩
  unfold k5_pay1
  simp only [shapeCast_self]
  exact congrArg (fun z : EReal => x0 (ix2 p o) + z) (spread_apply x1 p o)

/-! ## From the blocks to the array -/

/-- The index maps over the grid: the aggregate's and the result's row-block index is the point, the column-block index
    is zero; the bias row's block is always block (0, 0). -/
theorem blockIndices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the entrywise function of the whole arrays. -/
theorem flushed_eq (c : Dev nD) (t : Fin cfg5.N) :
    (dat5 V c).flushed 2 t = ((cfg5.win 2).blk t).view.read (Elt Ideal)
      (plusOneRow (V c main_v33 : FVec Ideal S50000x128 .f32) (V c main_v34 : FVec Ideal S1x128 .f32)) := by
  show (cfg5.win 2).cut (grid5.coords t) ((dat5 V c).after 2 t) = _
  rw [after5_2]
  unfold out5_2
  rw [View.canon_unit_zero zeroOffsets]
  simp only [View.ld_unit_zero (S := S5000x128) zeroOffsets, View.ld_unit_zero (S := S1x128) zeroOffsets]
  rw [stored_eq]
  obtain ⟨e0, e1, e2, e3, e4, e5⟩ := blockIndices t
  funext j
  obtain ⟨p, o, rfl⟩ : ∃ (p : Fin 5000) (o : Fin 128), j = ix2 p o := ⟨j 0, j 1, eq_ix2 j⟩
  show plusOneRow (iblk5 V c 0 t) (iblk5 V c 1 t) (ix2 p o)
      = plusOneRow (V c main_v33) (V c main_v34) (((cfg5.win 2).blk t).view.emb (ix2 p o))
  have hagg : iblk5 V c 0 t (ix2 p o)
      = (V c main_v33 : FVec Ideal S50000x128 .f32) (((cfg5.win 2).blk t).view.emb (ix2 p o)) := by
    unfold iblk5
    rw [View.read_apply]
    show V c main_v33 _ = V c main_v33 _
    refine congrArg (V c main_v33) (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * o.val = win5_2.index t (1 : Fin 2) * 128 + 1 * o.val; omega
  have hrow : iblk5 V c 1 t (ix2 0 o)
      = (V c main_v34 : FVec Ideal S1x128 .f32) (ix2 0 ((((cfg5.win 2).blk t).view.emb (ix2 p o)) 1)) := by
    unfold iblk5
    rw [View.read_apply]
    show V c main_v34 _ = V c main_v34 _
    refine congrArg (V c main_v34) (funext fun a => Fin.ext ?_)
    match a with
    | ⟨0, _⟩ => show win5_1.index t (0 : Fin 2) * 1 + 1 * 0 = 0; omega
    | ⟨1, _⟩ => show win5_1.index t (1 : Fin 2) * 128 + 1 * o.val = win5_2.index t (1 : Fin 2) * 128 + 1 * o.val; omega
  unfold plusOneRow
  exact congrArg₂ (fun a b : EReal => a + b) hagg hrow

/-- An index of the result array lies in point `t`'s block iff each coordinate lies in the block's range on its axis. -/
theorem mem_block (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v35).slice (win5_2.rect t)).set ↔ _
  rw [View.set_slice_whole, Rect.mem_set_unit]
  exact Iff.rfl

/-- THE RESULT ARRAY after the region: the aggregate it finds at `main_v33` plus the bias row it finds at `main_v34`. Row `r` is written by point `r / 5000`. -/
theorem result_eq (c : Dev nD) :
    (dat5 V c).arrAt 2 cfg5.N
      = plusOneRow (V c main_v33 : FVec Ideal S50000x128 .f32) (V c main_v34 : FVec Ideal S1x128 .f32) :=
  (dat5 V c).arrAt_eq_of_cover 2 _ (fun t _ => flushed_eq V c t) fun i => by
    have hi0 : (i 0).val < 50000 := (i 0).isLt
    have hi1 : (i 1).val < 128 := (i 1).isLt
    have hN : cfg5.N = 10 := N_5
    have ht : (i 0).val / 5000 < cfg5.N := by rw [hN]; omega
    refine ⟨⟨(i 0).val / 5000, ht⟩, flush5_2 _, ?_⟩
    rw [mem_block]
    obtain ⟨-, -, -, -, e4, e5⟩ := blockIndices ⟨(i 0).val / 5000, ht⟩
    intro a
    match a with
    | ⟨0, _⟩ =>
      show win5_2.index ⟨(i 0).val / 5000, ht⟩ (0 : Fin 2) * 5000 ≤ (i 0).val
        ∧ (i 0).val < win5_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win5_2.index ⟨(i 0).val / 5000, ht⟩ (1 : Fin 2) * 128 ≤ (i 1).val
        ∧ (i 1).val < win5_2.index ⟨(i 0).val / 5000, ht⟩ (1 : Fin 2) * 128 + 128
      rw [e5]; omega

end Cert.KernelIdeal.BiasAdd5

end
-- ==== Proof.KernelValue.lean ====
/-
  The kernel program's result as one function of its seven arguments.

  The program is six kernel regions among six stretches of host operations. Each boundary's buffer contents are the
  previous boundary's with the buffers the segment writes replaced: a host stretch writes its operations' results, a
  region writes its result array (the region modules say what it holds) and leaves everything else. Here each buffer a
  later segment reads is walked back to where it was written, and the values are composed: per layer, the node features
  times the upper weight rows, the rows of that product taken at the source indices, plus the edge attributes times the
  lower weight rows, scatter-added at the destination indices into the zero array, plus the bias row; the first layer
  is clamped at zero before it feeds the second.
-/
import proofs.«149655_j77962246357191_1_alg».proof.Proof.Gen.KernelIdeal.Frame
import proofs.«149655_j77962246357191_1_alg».proof.Proof.RowProducts
import proofs.«149655_j77962246357191_1_alg».proof.Proof.NodeProduct0
import proofs.«149655_j77962246357191_1_alg».proof.Proof.EdgeMessages1
import proofs.«149655_j77962246357191_1_alg».proof.Proof.BiasClamp2
import proofs.«149655_j77962246357191_1_alg».proof.Proof.NodeProduct3
import proofs.«149655_j77962246357191_1_alg».proof.Proof.EdgeMessages4
import proofs.«149655_j77962246357191_1_alg».proof.Proof.BiasAdd5
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.RowProducts

/-! ## The value -/

/-- The source indices as the gather takes them: row 0 of the edge index, a negative index moved up by the node count
    once, as a column of start indices. -/
def sourceColumn (ei : IVec S2x800000 32) : IVec S800000x1 32 :=
  broadcastInDim S800000x1 ![0] bcast_S800000_S800000x1_0
    (select (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The destination indices as the scatter takes them: row 1 of the edge index as a column. -/
def destColumn (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- One layer before its activation: project the nodes, take the source rows, add the projected edge attributes,
    scatter-add at the destinations into zeros, add the bias row. -/
def layer (X : FVec Ideal S50000x128 .f32) (ei : IVec S2x800000 32) (EA : FVec Ideal S800000x16 .f32)
    (W : FVec Ideal S144x128 .f32) (b : FVec Ideal S128 .f32) : FVec Ideal S50000x128 .f32 :=
  plusOneRow
    (Host.scatterAdd scatter_S50000x128_S800000x1_S800000x128_1_0_0_1
      (broadcastInDim S50000x128 ![] bcast_S_S50000x128 (constant (F := Ideal) S_ .f32 0x00000000#32))
      (destColumn ei)
      (addf
        (Host.gather gather_S50000x128_S800000x1_S800000x128_1_0_n_n_0_1_1128
          (rowsTimes X (extractStridedSlice S128x128 ![0, 0] W slices_S144x128_S128x128_0_0)) (sourceColumn ei))
        (rowsTimes EA (extractStridedSlice S16x128 ![128, 0] W slices_S144x128_S16x128_128_0))))
    (shapeCast S1x128 b shapeCasts_S128_S1x128)

/-- The whole program: two layers, the first clamped at zero. -/
def value (x : FVec Ideal S50000x128 .f32) (ei : IVec S2x800000 32) (ea : FVec Ideal S800000x16 .f32)
    (W1 : FVec Ideal S144x128 .f32) (b1 : FVec Ideal S128 .f32) (W2 : FVec Ideal S144x128 .f32) (b2 : FVec Ideal S128 .f32) :
    FVec Ideal S50000x128 .f32 :=
  layer (clampZero (layer x ei ea W1 b1)) ei ea W2 b2

/-! ## Walking buffers back to where they were written -/

variable (m : (ℓ : Loc nD τ sig) → Buf (Elt Ideal) ℓ) (ρ : Dev nD → PrngReg) (c : Dev nD)

/-- A host stretch leaves a buffer none of its operations writes as it was. -/
local macro "untouched_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The node features when region 0 is entered. -/
theorem features_at1 : W1 m ρ c (Proc.devRef .tc main_arg0) = m ((c : Thread nD τ).loc main_arg0) :=
  calc W1 m ρ c (Proc.devRef .tc main_arg0)
    _ = W0 m ρ c (Proc.devRef .tc main_arg0) := by untouched_by hostOps0
    _ = m ((c : Thread nD τ).loc main_arg0) := rfl

/-- The upper weight rows of layer one when region 0 is entered. -/
theorem upper1_at1 : W1 m ρ c (Proc.devRef .tc main_v4)
    = extractStridedSlice S128x128 ![0, 0] (m ((c : Thread nD τ).loc main_arg3)) slices_S144x128_S128x128_0_0 := by
  show StableHlo.after hostOps0 (W0 m ρ c) (Proc.devRef .tc main_v4) = _
  after_results

/-- The raw source indices after the first host stretch. -/
theorem source_at1 : W1 m ρ c (Proc.devRef .tc main_v1)
    = shapeCast S800000 (extractStridedSlice S1x800000 ![0, 0] (m ((c : Thread nD τ).loc main_arg1)) slices_S2x800000_S1x800000_0_0) shapeCasts_S1x800000_S800000 := by
  show StableHlo.after hostOps0 (W0 m ρ c) (Proc.devRef .tc main_v1) = _
  after_results
  rfl

/-- The raw destination indices after the first host stretch. -/
theorem dest_at1 : W1 m ρ c (Proc.devRef .tc main_v3)
    = shapeCast S800000 (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  after_results
  rfl

/-- The lower weight rows of layer one after the first host stretch. -/
theorem lower1_at1 : W1 m ρ c (Proc.devRef .tc main_v5)
    = extractStridedSlice S16x128 ![128, 0] (m ((c : Thread nD τ).loc main_arg3)) slices_S144x128_S16x128_128_0 := by
  show StableHlo.after hostOps0 (W0 m ρ c) (Proc.devRef .tc main_v5) = _
  after_results

/-! ### Layer one -/

/-- The raw source indices when the first gather runs. -/
theorem source_at2 : W2 m ρ c (Proc.devRef .tc main_v1) = shapeCast S800000 (extractStridedSlice S1x800000 ![0, 0] (m ((c : Thread nD τ).loc main_arg1)) slices_S2x800000_S1x800000_0_0) shapeCasts_S1x800000_S800000 :=
  calc W2 m ρ c (Proc.devRef .tc main_v1)
    _ = W1 m ρ c (Proc.devRef .tc main_v1) := W2_of_ne m ρ c main_v1 (by decide)
    _ = shapeCast S800000 (extractStridedSlice S1x800000 ![0, 0] (m ((c : Thread nD τ).loc main_arg1)) slices_S2x800000_S1x800000_0_0) shapeCasts_S1x800000_S800000 := source_at1 m ρ c

/-- The edge attributes when region 1 is entered. -/
theorem attrs_at3 : W3 m ρ c (Proc.devRef .tc main_arg2) = m ((c : Thread nD τ).loc main_arg2) :=
  calc W3 m ρ c (Proc.devRef .tc main_arg2)
    _ = W2 m ρ c (Proc.devRef .tc main_arg2) := by untouched_by hostOps1
    _ = W1 m ρ c (Proc.devRef .tc main_arg2) := W2_of_ne m ρ c main_arg2 (by decide)
    _ = W0 m ρ c (Proc.devRef .tc main_arg2) := by untouched_by hostOps0
    _ = m ((c : Thread nD τ).loc main_arg2) := rfl

/-- The lower weight rows of layer one when region 1 is entered. -/
theorem lower1_at3 : W3 m ρ c (Proc.devRef .tc main_v5) = extractStridedSlice S16x128 ![128, 0] (m ((c : Thread nD τ).loc main_arg3)) slices_S144x128_S16x128_128_0 :=
  calc W3 m ρ c (Proc.devRef .tc main_v5)
    _ = W2 m ρ c (Proc.devRef .tc main_v5) := by untouched_by hostOps1
    _ = W1 m ρ c (Proc.devRef .tc main_v5) := W2_of_ne m ρ c main_v5 (by decide)
    _ = extractStridedSlice S16x128 ![128, 0] (m ((c : Thread nD τ).loc main_arg3)) slices_S144x128_S16x128_128_0 := lower1_at1 m ρ c

/-- The raw destination indices when the first scatter runs. -/
theorem dest_at4 : W4 m ρ c (Proc.devRef .tc main_v3) = shapeCast S800000 (extractStridedSlice S1x800000 ![1, 0] (m ((c : Thread nD τ).loc main_arg1)) slices_S2x800000_S1x800000_1_0) shapeCasts_S1x800000_S800000 :=
  calc W4 m ρ c (Proc.devRef .tc main_v3)
    _ = W3 m ρ c (Proc.devRef .tc main_v3) := W4_of_ne m ρ c main_v3 (by decide)
    _ = W2 m ρ c (Proc.devRef .tc main_v3) := by untouched_by hostOps1
    _ = W1 m ρ c (Proc.devRef .tc main_v3) := W2_of_ne m ρ c main_v3 (by decide)
    _ = shapeCast S800000 (extractStridedSlice S1x800000 ![1, 0] (m ((c : Thread nD τ).loc main_arg1)) slices_S2x800000_S1x800000_1_0) shapeCasts_S1x800000_S800000 := dest_at1 m ρ c

/-- The first bias when the third host stretch runs. -/
theorem bias1_at4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by untouched_by hostOps1
    _ = W1 m ρ c (Proc.devRef .tc main_arg4) := W2_of_ne m ρ c main_arg4 (by decide)
    _ = W0 m ρ c (Proc.devRef .tc main_arg4) := by untouched_by hostOps0
    _ = m ((c : Thread nD τ).loc main_arg4) := rfl

/-! ### Layer two -/

/-- The second weight matrix when the fourth host stretch runs. -/
theorem weights2_at6 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by untouched_by hostOps2
    _ = W3 m ρ c (Proc.devRef .tc main_arg5) := W4_of_ne m ρ c main_arg5 (by decide)
    _ = W2 m ρ c (Proc.devRef .tc main_arg5) := by untouched_by hostOps1
    _ = W1 m ρ c (Proc.devRef .tc main_arg5) := W2_of_ne m ρ c main_arg5 (by decide)
    _ = W0 m ρ c (Proc.devRef .tc main_arg5) := by untouched_by hostOps0
    _ = m ((c : Thread nD τ).loc main_arg5) := rfl

/-- The raw source indices when the second gather runs. -/
theorem source_at8 : W8 m ρ c (Proc.devRef .tc main_v1) = shapeCast S800000 (extractStridedSlice S1x800000 ![0, 0] (m ((c : Thread nD τ).loc main_arg1)) slices_S2x800000_S1x800000_0_0) shapeCasts_S1x800000_S800000 :=
  calc W8 m ρ c (Proc.devRef .tc main_v1)
    _ = W7 m ρ c (Proc.devRef .tc main_v1) := W8_of_ne m ρ c main_v1 (by decide)
    _ = W6 m ρ c (Proc.devRef .tc main_v1) := by untouched_by hostOps3
    _ = W5 m ρ c (Proc.devRef .tc main_v1) := W6_of_ne m ρ c main_v1 (by decide)
    _ = W4 m ρ c (Proc.devRef .tc main_v1) := by untouched_by hostOps2
    _ = W3 m ρ c (Proc.devRef .tc main_v1) := W4_of_ne m ρ c main_v1 (by decide)
    _ = W2 m ρ c (Proc.devRef .tc main_v1) := by untouched_by hostOps1
    _ = shapeCast S800000 (extractStridedSlice S1x800000 ![0, 0] (m ((c : Thread nD τ).loc main_arg1)) slices_S2x800000_S1x800000_0_0) shapeCasts_S1x800000_S800000 := source_at2 m ρ c

/-- The edge attributes when region 4 is entered. -/
theorem attrs_at9 : W9 m ρ c (Proc.devRef .tc main_arg2) = m ((c : Thread nD τ).loc main_arg2) :=
  calc W9 m ρ c (Proc.devRef .tc main_arg2)
    _ = W8 m ρ c (Proc.devRef .tc main_arg2) := by untouched_by hostOps4
    _ = W7 m ρ c (Proc.devRef .tc main_arg2) := W8_of_ne m ρ c main_arg2 (by decide)
    _ = W6 m ρ c (Proc.devRef .tc main_arg2) := by untouched_by hostOps3
    _ = W5 m ρ c (Proc.devRef .tc main_arg2) := W6_of_ne m ρ c main_arg2 (by decide)
    _ = W4 m ρ c (Proc.devRef .tc main_arg2) := by untouched_by hostOps2
    _ = W3 m ρ c (Proc.devRef .tc main_arg2) := (W4_arr m ρ c 0).trans (((dat1 (V3 m ρ) c).arrAt_in 0 rfl _).trans (A_eq1 (V3 m ρ) c 0))
    _ = m ((c : Thread nD τ).loc main_arg2) := attrs_at3 m ρ c

/-- The raw destination indices when the second scatter runs. -/
theorem dest_at10 : W10 m ρ c (Proc.devRef .tc main_v3) = shapeCast S800000 (extractStridedSlice S1x800000 ![1, 0] (m ((c : Thread nD τ).loc main_arg1)) slices_S2x800000_S1x800000_1_0) shapeCasts_S1x800000_S800000 :=
  calc W10 m ρ c (Proc.devRef .tc main_v3)
    _ = W9 m ρ c (Proc.devRef .tc main_v3) := W10_of_ne m ρ c main_v3 (by decide)
    _ = W8 m ρ c (Proc.devRef .tc main_v3) := by untouched_by hostOps4
    _ = W7 m ρ c (Proc.devRef .tc main_v3) := W8_of_ne m ρ c main_v3 (by decide)
    _ = W6 m ρ c (Proc.devRef .tc main_v3) := by untouched_by hostOps3
    _ = W5 m ρ c (Proc.devRef .tc main_v3) := W6_of_ne m ρ c main_v3 (by decide)
    _ = W4 m ρ c (Proc.devRef .tc main_v3) := by untouched_by hostOps2
    _ = shapeCast S800000 (extractStridedSlice S1x800000 ![1, 0] (m ((c : Thread nD τ).loc main_arg1)) slices_S2x800000_S1x800000_1_0) shapeCasts_S1x800000_S800000 := dest_at4 m ρ c

/-- The second bias when the last host stretch runs. -/
theorem bias2_at10 : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by untouched_by hostOps4
    _ = W7 m ρ c (Proc.devRef .tc main_arg6) := W8_of_ne m ρ c main_arg6 (by decide)
    _ = W6 m ρ c (Proc.devRef .tc main_arg6) := by untouched_by hostOps3
    _ = W5 m ρ c (Proc.devRef .tc main_arg6) := W6_of_ne m ρ c main_arg6 (by decide)
    _ = W4 m ρ c (Proc.devRef .tc main_arg6) := by untouched_by hostOps2
    _ = W3 m ρ c (Proc.devRef .tc main_arg6) := W4_of_ne m ρ c main_arg6 (by decide)
    _ = W2 m ρ c (Proc.devRef .tc main_arg6) := by untouched_by hostOps1
    _ = W1 m ρ c (Proc.devRef .tc main_arg6) := W2_of_ne m ρ c main_arg6 (by decide)
    _ = W0 m ρ c (Proc.devRef .tc main_arg6) := by untouched_by hostOps0
    _ = m ((c : Thread nD τ).loc main_arg6) := rfl

/-! ## The values, segment by segment -/

/-- Region 0 leaves the node features times the upper weight rows. -/
theorem projected1 : W2 m ρ c (Proc.devRef .tc main_v6) = (rowsTimes (m ((c : Thread nD τ).loc main_arg0) : FVec Ideal S50000x128 .f32) (extractStridedSlice S128x128 ![0, 0] (m ((c : Thread nD τ).loc main_arg3)) slices_S144x128_S128x128_0_0)) :=
  (W2_arr m ρ c 2).trans ((NodeProduct0.result_eq (V1 m ρ) c).trans
    (congrArg₂ (rowsTimes (M := 50000) (K := 128) (N := 128)) (features_at1 m ρ c) (upper1_at1 m ρ c)))

/-- The second host stretch takes the source rows of that product. -/
theorem gathered1 : W3 m ρ c (Proc.devRef .tc main_v13) = (Host.gather gather_S50000x128_S800000x1_S800000x128_1_0_n_n_0_1_1128 (rowsTimes (m ((c : Thread nD τ).loc main_arg0) : FVec Ideal S50000x128 .f32) (extractStridedSlice S128x128 ![0, 0] (m ((c : Thread nD τ).loc main_arg3)) slices_S144x128_S128x128_0_0)) (sourceColumn (m ((c : Thread nD τ).loc main_arg1)))) := by
  have h : W3 m ρ c (Proc.devRef .tc main_v13) = Host.gather gather_S50000x128_S800000x1_S800000x128_1_0_n_n_0_1_1128 (W2 m ρ c (Proc.devRef .tc main_v6))
        (broadcastInDim S800000x1 ![0] bcast_S800000_S800000x1_0
          (select (cmpi .slt (W2 m ρ c (Proc.devRef .tc main_v1)) (broadcastInDim S800000 ![] bcast_S_S800000 (constantI S_ 32 0#32)))
            (addi (W2 m ρ c (Proc.devRef .tc main_v1)) (broadcastInDim S800000 ![] bcast_S_S800000 (constantI S_ 32 50000#32)))
            (W2 m ρ c (Proc.devRef .tc main_v1)))) := by
    show StableHlo.after hostOps1 (W2 m ρ c) (Proc.devRef .tc main_v13) = _
    after_results
  rw [h, projected1 m ρ c, source_at2 m ρ c]
  rfl

/-- Region 1 leaves the messages of layer one. -/
theorem messages1 : W4 m ρ c (Proc.devRef .tc main_v14) = (addf (Host.gather gather_S50000x128_S800000x1_S800000x128_1_0_n_n_0_1_1128 (rowsTimes (m ((c : Thread nD τ).loc main_arg0) : FVec Ideal S50000x128 .f32) (extractStridedSlice S128x128 ![0, 0] (m ((c : Thread nD τ).loc main_arg3)) slices_S144x128_S128x128_0_0)) (sourceColumn (m ((c : Thread nD τ).loc main_arg1)))) (rowsTimes (m ((c : Thread nD τ).loc main_arg2) : FVec Ideal S800000x16 .f32) (extractStridedSlice S16x128 ![128, 0] (m ((c : Thread nD τ).loc main_arg3)) slices_S144x128_S16x128_128_0))) :=
  (W4_arr m ρ c 3).trans ((EdgeMessages1.result_eq (V3 m ρ) c).trans (by
    show EdgeMessages1.messages (W3 m ρ c (Proc.devRef .tc main_arg2)) (W3 m ρ c (Proc.devRef .tc main_v5)) (W3 m ρ c (Proc.devRef .tc main_v13)) = _
    rw [attrs_at3 m ρ c, lower1_at3 m ρ c, gathered1 m ρ c]))

/-- The third host stretch scatter-adds them at the destinations into zeros, -/
theorem aggregated1 : W5 m ρ c (Proc.devRef .tc main_v17) = (Host.scatterAdd scatter_S50000x128_S800000x1_S800000x128_1_0_0_1 (broadcastInDim S50000x128 ![] bcast_S_S50000x128 (constant (F := Ideal) S_ .f32 0x00000000#32)) (destColumn (m ((c : Thread nD τ).loc main_arg1))) (addf (Host.gather gather_S50000x128_S800000x1_S800000x128_1_0_n_n_0_1_1128 (rowsTimes (m ((c : Thread nD τ).loc main_arg0) : FVec Ideal S50000x128 .f32) (extractStridedSlice S128x128 ![0, 0] (m ((c : Thread nD τ).loc main_arg3)) slices_S144x128_S128x128_0_0)) (sourceColumn (m ((c : Thread nD τ).loc main_arg1)))) (rowsTimes (m ((c : Thread nD τ).loc main_arg2) : FVec Ideal S800000x16 .f32) (extractStridedSlice S16x128 ![128, 0] (m ((c : Thread nD τ).loc main_arg3)) slices_S144x128_S16x128_128_0)))) := by
  have h : W5 m ρ c (Proc.devRef .tc main_v17) = Host.scatterAdd scatter_S50000x128_S800000x1_S800000x128_1_0_0_1 (broadcastInDim S50000x128 ![] bcast_S_S50000x128 (constant (F := Ideal) S_ .f32 0x00000000#32))
        (broadcastInDim S800000x1 ![0] bcast_S800000_S800000x1_0 (W4 m ρ c (Proc.devRef .tc main_v3))) (W4 m ρ c (Proc.devRef .tc main_v14)) := by
    show StableHlo.after hostOps2 (W4 m ρ c) (Proc.devRef .tc main_v17) = _
    after_results
  rw [h, dest_at4 m ρ c, messages1 m ρ c]
  rfl

/-- and lays the first bias out as a one-row matrix. -/
theorem biasRow1 : W5 m ρ c (Proc.devRef .tc main_v18) = shapeCast S1x128 (m ((c : Thread nD τ).loc main_arg4)) shapeCasts_S128_S1x128 := by
  have h : W5 m ρ c (Proc.devRef .tc main_v18) = shapeCast S1x128 (W4 m ρ c (Proc.devRef .tc main_arg4)) shapeCasts_S128_S1x128 := by
    show StableHlo.after hostOps2 (W4 m ρ c) (Proc.devRef .tc main_v18) = _
    after_results
    rfl
  rw [h, bias1_at4 m ρ c]

/-- Region 2 leaves layer one, clamped at zero. -/
theorem hidden : W6 m ρ c (Proc.devRef .tc main_v19) = (clampZero (layer (m ((c : Thread nD τ).loc main_arg0)) (m ((c : Thread nD τ).loc main_arg1)) (m ((c : Thread nD τ).loc main_arg2)) (m ((c : Thread nD τ).loc main_arg3)) (m ((c : Thread nD τ).loc main_arg4)))) :=
  (W6_arr m ρ c 2).trans ((BiasClamp2.result_eq (V5 m ρ) c).trans (by
    show clampZero (plusOneRow (W5 m ρ c (Proc.devRef .tc main_v17)) (W5 m ρ c (Proc.devRef .tc main_v18))) = _
    rw [aggregated1 m ρ c, biasRow1 m ρ c]
    rfl))

/-- Layer one when region 3 is entered. -/
theorem hidden_at7 : W7 m ρ c (Proc.devRef .tc main_v19) = (clampZero (layer (m ((c : Thread nD τ).loc main_arg0)) (m ((c : Thread nD τ).loc main_arg1)) (m ((c : Thread nD τ).loc main_arg2)) (m ((c : Thread nD τ).loc main_arg3)) (m ((c : Thread nD τ).loc main_arg4)))) :=
  calc W7 m ρ c (Proc.devRef .tc main_v19)
    _ = W6 m ρ c (Proc.devRef .tc main_v19) := by untouched_by hostOps3
    _ = (clampZero (layer (m ((c : Thread nD τ).loc main_arg0)) (m ((c : Thread nD τ).loc main_arg1)) (m ((c : Thread nD τ).loc main_arg2)) (m ((c : Thread nD τ).loc main_arg3)) (m ((c : Thread nD τ).loc main_arg4)))) := hidden m ρ c

/-- The upper weight rows of layer two when region 3 is entered. -/
theorem upper2_at7 : W7 m ρ c (Proc.devRef .tc main_v20) = extractStridedSlice S128x128 ![0, 0] (m ((c : Thread nD τ).loc main_arg5)) slices_S144x128_S128x128_0_0 := by
  have h : W7 m ρ c (Proc.devRef .tc main_v20) = extractStridedSlice S128x128 ![0, 0] (W6 m ρ c (Proc.devRef .tc main_arg5)) slices_S144x128_S128x128_0_0 := by
    show StableHlo.after hostOps3 (W6 m ρ c) (Proc.devRef .tc main_v20) = _
    after_results
  rw [h, weights2_at6 m ρ c]

/-- The lower weight rows of layer two after the fourth host stretch. -/
theorem lower2_at7 : W7 m ρ c (Proc.devRef .tc main_v21) = extractStridedSlice S16x128 ![128, 0] (m ((c : Thread nD τ).loc main_arg5)) slices_S144x128_S16x128_128_0 := by
  have h : W7 m ρ c (Proc.devRef .tc main_v21) = extractStridedSlice S16x128 ![128, 0] (W6 m ρ c (Proc.devRef .tc main_arg5)) slices_S144x128_S16x128_128_0 := by
    show StableHlo.after hostOps3 (W6 m ρ c) (Proc.devRef .tc main_v21) = _
    after_results
  rw [h, weights2_at6 m ρ c]

/-- The lower weight rows of layer two when region 4 is entered. -/
theorem lower2_at9 : W9 m ρ c (Proc.devRef .tc main_v21) = extractStridedSlice S16x128 ![128, 0] (m ((c : Thread nD τ).loc main_arg5)) slices_S144x128_S16x128_128_0 :=
  calc W9 m ρ c (Proc.devRef .tc main_v21)
    _ = W8 m ρ c (Proc.devRef .tc main_v21) := by untouched_by hostOps4
    _ = W7 m ρ c (Proc.devRef .tc main_v21) := W8_of_ne m ρ c main_v21 (by decide)
    _ = extractStridedSlice S16x128 ![128, 0] (m ((c : Thread nD τ).loc main_arg5)) slices_S144x128_S16x128_128_0 := lower2_at7 m ρ c

/-- Region 3 leaves layer one times the upper weight rows of layer two. -/
theorem projected2 : W8 m ρ c (Proc.devRef .tc main_v22) = (rowsTimes ((clampZero (layer (m ((c : Thread nD τ).loc main_arg0)) (m ((c : Thread nD τ).loc main_arg1)) (m ((c : Thread nD τ).loc main_arg2)) (m ((c : Thread nD τ).loc main_arg3)) (m ((c : Thread nD τ).loc main_arg4)))) : FVec Ideal S50000x128 .f32) (extractStridedSlice S128x128 ![0, 0] (m ((c : Thread nD τ).loc main_arg5)) slices_S144x128_S128x128_0_0)) :=
  (W8_arr m ρ c 2).trans ((NodeProduct3.result_eq (V7 m ρ) c).trans
    (congrArg₂ (rowsTimes (M := 50000) (K := 128) (N := 128)) (hidden_at7 m ρ c) (upper2_at7 m ρ c)))

/-- The fifth host stretch takes the source rows of that product. -/
theorem gathered2 : W9 m ρ c (Proc.devRef .tc main_v29) = (Host.gather gather_S50000x128_S800000x1_S800000x128_1_0_n_n_0_1_1128 (rowsTimes ((clampZero (layer (m ((c : Thread nD τ).loc main_arg0)) (m ((c : Thread nD τ).loc main_arg1)) (m ((c : Thread nD τ).loc main_arg2)) (m ((c : Thread nD τ).loc main_arg3)) (m ((c : Thread nD τ).loc main_arg4)))) : FVec Ideal S50000x128 .f32) (extractStridedSlice S128x128 ![0, 0] (m ((c : Thread nD τ).loc main_arg5)) slices_S144x128_S128x128_0_0)) (sourceColumn (m ((c : Thread nD τ).loc main_arg1)))) := by
  have h : W9 m ρ c (Proc.devRef .tc main_v29) = Host.gather gather_S50000x128_S800000x1_S800000x128_1_0_n_n_0_1_1128 (W8 m ρ c (Proc.devRef .tc main_v22))
        (broadcastInDim S800000x1 ![0] bcast_S800000_S800000x1_0
          (select (cmpi .slt (W8 m ρ c (Proc.devRef .tc main_v1)) (broadcastInDim S800000 ![] bcast_S_S800000 (constantI S_ 32 0#32)))
            (addi (W8 m ρ c (Proc.devRef .tc main_v1)) (broadcastInDim S800000 ![] bcast_S_S800000 (constantI S_ 32 50000#32)))
            (W8 m ρ c (Proc.devRef .tc main_v1)))) := by
    show StableHlo.after hostOps4 (W8 m ρ c) (Proc.devRef .tc main_v29) = _
    after_results
  rw [h, projected2 m ρ c, source_at8 m ρ c]
  rfl

/-- Region 4 leaves the messages of layer two. -/
theorem messages2 : W10 m ρ c (Proc.devRef .tc main_v30) = (addf (Host.gather gather_S50000x128_S800000x1_S800000x128_1_0_n_n_0_1_1128 (rowsTimes ((clampZero (layer (m ((c : Thread nD τ).loc main_arg0)) (m ((c : Thread nD τ).loc main_arg1)) (m ((c : Thread nD τ).loc main_arg2)) (m ((c : Thread nD τ).loc main_arg3)) (m ((c : Thread nD τ).loc main_arg4)))) : FVec Ideal S50000x128 .f32) (extractStridedSlice S128x128 ![0, 0] (m ((c : Thread nD τ).loc main_arg5)) slices_S144x128_S128x128_0_0)) (sourceColumn (m ((c : Thread nD τ).loc main_arg1)))) (rowsTimes (m ((c : Thread nD τ).loc main_arg2) : FVec Ideal S800000x16 .f32) (extractStridedSlice S16x128 ![128, 0] (m ((c : Thread nD τ).loc main_arg5)) slices_S144x128_S16x128_128_0))) :=
  (W10_arr m ρ c 3).trans ((EdgeMessages4.result_eq (V9 m ρ) c).trans (by
    show EdgeMessages4.messages (W9 m ρ c (Proc.devRef .tc main_arg2)) (W9 m ρ c (Proc.devRef .tc main_v21)) (W9 m ρ c (Proc.devRef .tc main_v29)) = _
    rw [attrs_at9 m ρ c, lower2_at9 m ρ c, gathered2 m ρ c]))

/-- The last host stretch scatter-adds them at the destinations into zeros, -/
theorem aggregated2 : W11 m ρ c (Proc.devRef .tc main_v33) = (Host.scatterAdd scatter_S50000x128_S800000x1_S800000x128_1_0_0_1 (broadcastInDim S50000x128 ![] bcast_S_S50000x128 (constant (F := Ideal) S_ .f32 0x00000000#32)) (destColumn (m ((c : Thread nD τ).loc main_arg1))) (addf (Host.gather gather_S50000x128_S800000x1_S800000x128_1_0_n_n_0_1_1128 (rowsTimes ((clampZero (layer (m ((c : Thread nD τ).loc main_arg0)) (m ((c : Thread nD τ).loc main_arg1)) (m ((c : Thread nD τ).loc main_arg2)) (m ((c : Thread nD τ).loc main_arg3)) (m ((c : Thread nD τ).loc main_arg4)))) : FVec Ideal S50000x128 .f32) (extractStridedSlice S128x128 ![0, 0] (m ((c : Thread nD τ).loc main_arg5)) slices_S144x128_S128x128_0_0)) (sourceColumn (m ((c : Thread nD τ).loc main_arg1)))) (rowsTimes (m ((c : Thread nD τ).loc main_arg2) : FVec Ideal S800000x16 .f32) (extractStridedSlice S16x128 ![128, 0] (m ((c : Thread nD τ).loc main_arg5)) slices_S144x128_S16x128_128_0)))) := by
  have h : W11 m ρ c (Proc.devRef .tc main_v33) = Host.scatterAdd scatter_S50000x128_S800000x1_S800000x128_1_0_0_1 (broadcastInDim S50000x128 ![] bcast_S_S50000x128 (constant (F := Ideal) S_ .f32 0x00000000#32))
        (broadcastInDim S800000x1 ![0] bcast_S800000_S800000x1_0 (W10 m ρ c (Proc.devRef .tc main_v3))) (W10 m ρ c (Proc.devRef .tc main_v30)) := by
    show StableHlo.after hostOps5 (W10 m ρ c) (Proc.devRef .tc main_v33) = _
    after_results
  rw [h, dest_at10 m ρ c, messages2 m ρ c]
  rfl

/-- and lays the second bias out as a one-row matrix. -/
theorem biasRow2 : W11 m ρ c (Proc.devRef .tc main_v34) = shapeCast S1x128 (m ((c : Thread nD τ).loc main_arg6)) shapeCasts_S128_S1x128 := by
  have h : W11 m ρ c (Proc.devRef .tc main_v34) = shapeCast S1x128 (W10 m ρ c (Proc.devRef .tc main_arg6)) shapeCasts_S128_S1x128 := by
    show StableHlo.after hostOps5 (W10 m ρ c) (Proc.devRef .tc main_v34) = _
    after_results
    rfl
  rw [h, bias2_at10 m ρ c]

/-- THE RESULT: region 5 leaves the program's value of the seven arguments as launched. -/
theorem result_eq : W12 m ρ c (Proc.devRef .tc main_v35)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W12_arr m ρ c 2).trans ((BiasAdd5.result_eq (V11 m ρ) c).trans (by
    show plusOneRow (W11 m ρ c (Proc.devRef .tc main_v33)) (W11 m ρ c (Proc.devRef .tc main_v34)) = _
    rw [aggregated2 m ρ c, biasRow2 m ρ c]
    rfl))

end Cert.KernelIdeal.Chain

end
-- ==== Proof.Bridge.lean ====
/-
  The two programs compute one function.

  The reference takes the source rows of the node features first and multiplies them by the upper weight rows; the
  kernel program multiplies first and takes the rows of the product. A row of a product depends on the same row of the
  left factor only, so the two agree index by index, whatever the source indices are (`gather_rowsTimes`). Everything
  else is the same operation on both sides, applied to values already shown equal: the edge attributes times the lower
  weight rows (the host's `dot_general` is the same sum), the sum of the two terms in the same order, the scatter-add
  into zeros at the same destination indices, the bias (a one-row matrix read at its column on one side, the vector
  spread over the rows on the other), the clamp at the float zero. No law of the extended reals is used beyond reading
  sums at an index, so the precondition is never opened.
-/
import proofs.«149655_j77962246357191_1_alg».proof.Proof.KernelValue
import proofs.«149655_j77962246357191_1_alg».proof.Proof.Gen.ReferenceIdeal.Run
import proofs.«149655_j77962246357191_1_alg».proof.Proof.Gen.ReferenceIdeal.Read
import proofs.«149655_j77962246357191_1_alg».proof.Proof.RowProducts
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Bridge

open Cert.ReferenceIdeal Cert.ReferenceIdeal.Gen Cert.RowProducts

/-! ## The reference's value, named -/

/-- The source indices as the reference's gather takes them. -/
def sourceColumn (ei : IVec S2x800000 32) : IVec S800000x1 32 :=
  broadcastInDim S800000x1 ![0] bcast_S800000_S800000x1_0
    (select (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The destination indices as the reference's scatter takes them. -/
def destColumn (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- The zero array the scatter adds into. -/
def zeros : FVec Ideal S50000x128 .f32 :=
  broadcastInDim S50000x128 ![] bcast_S_S50000x128 (constant (F := Ideal) S_ .f32 0x00000000#32)

/-- One layer of the reference before its activation. -/
def refLayer (X : FVec Ideal S50000x128 .f32) (ei : IVec S2x800000 32) (EA : FVec Ideal S800000x16 .f32)
    (W : FVec Ideal S144x128 .f32) (b : FVec Ideal S128 .f32) : FVec Ideal S50000x128 .f32 :=
  addf
    (Host.scatterAdd scatter_S50000x128_S800000x1_S800000x128_1_0_0_1 zeros (destColumn ei)
      (addf
        (Host.dotGeneral dot_S800000x128_S128x128_S800000x128_1_0_0_1_n_n none (Host.gather gather_S50000x128_S800000x1_S800000x128_1_0_n_n_0_1_1128 X (sourceColumn ei))
          (extractStridedSlice S128x128 ![0, 0] W slices_S144x128_S128x128_0_0))
        (Host.dotGeneral dot_S800000x16_S16x128_S800000x128_1_0_0_1_n_n none EA (extractStridedSlice S16x128 ![128, 0] W slices_S144x128_S16x128_128_0))))
    (broadcastInDim S50000x128 ![0, 1] bcast_S1x128_S50000x128_0_1 (broadcastInDim S1x128 ![1] bcast_S128_S1x128_1 b))

/-- The reference: two layers, the first through `relu`. -/
def refValue (x : FVec Ideal S50000x128 .f32) (ei : IVec S2x800000 32) (ea : FVec Ideal S800000x16 .f32)
    (W1 : FVec Ideal S144x128 .f32) (b1 : FVec Ideal S128 .f32) (W2 : FVec Ideal S144x128 .f32) (b2 : FVec Ideal S128 .f32) :
    FVec Ideal S50000x128 .f32 :=
  refLayer (maximumf (refLayer x ei ea W1 b1) zeros) ei ea W2 b2

/-! ## The gather takes whole rows -/

theorem batch_free (a : Fin 2) : a ∉ gather_S50000x128_S800000x1_S800000x128_1_0_n_n_0_1_1128.operandBatchingDims := List.not_mem_nil
theorem row_collapsed : (0 : Fin 2) ∉ gather_S50000x128_S800000x1_S800000x128_1_0_n_n_0_1_1128.sKept :=
  fun h => ((GatherDims.mem_sKept _ _).mp h).1 (List.mem_singleton.mpr rfl)
theorem row_started : (0 : Fin 2) ∈ gather_S50000x128_S800000x1_S800000x128_1_0_n_n_0_1_1128.startIndexMap := List.mem_singleton.mpr rfl
theorem col_not_started : (1 : Fin 2) ∉ gather_S50000x128_S800000x1_S800000x128_1_0_n_n_0_1_1128.startIndexMap := by decide
theorem col_kept : (1 : Fin 2) ∈ gather_S50000x128_S800000x1_S800000x128_1_0_n_n_0_1_1128.sKept := by decide

/-- The operand row read at result index `(e, q)` does not depend on the column `q`: it is the start index at row `e`. -/
theorem gather_row (idx : IVec S800000x1 32) (e : Fin 800000) (q q' : Fin 128) :
    (gather_S50000x128_S800000x1_S800000x128_1_0_n_n_0_1_1128.operandIdx (ix2 e q) idx 0).val = (gather_S50000x128_S800000x1_S800000x128_1_0_n_n_0_1_1128.operandIdx (ix2 e q') idx 0).val := by
  show gather_S50000x128_S800000x1_S800000x128_1_0_n_n_0_1_1128.start (ix2 e q) idx 0 + gather_S50000x128_S800000x1_S800000x128_1_0_n_n_0_1_1128.batchCoord (ix2 e q) 0 + gather_S50000x128_S800000x1_S800000x128_1_0_n_n_0_1_1128.offCoord (ix2 e q) 0
    = gather_S50000x128_S800000x1_S800000x128_1_0_n_n_0_1_1128.start (ix2 e q') idx 0 + gather_S50000x128_S800000x1_S800000x128_1_0_n_n_0_1_1128.batchCoord (ix2 e q') 0 + gather_S50000x128_S800000x1_S800000x128_1_0_n_n_0_1_1128.offCoord (ix2 e q') 0
  rw [GatherDims.batchCoord_eq_zero _ _ _ (batch_free 0), GatherDims.batchCoord_eq_zero _ _ _ (batch_free 0),
    GatherDims.offCoord_eq_zero _ _ _ row_collapsed, GatherDims.offCoord_eq_zero _ _ _ row_collapsed]
  unfold GatherDims.start
  rw [dif_pos row_started, dif_pos row_started]
  have hsi : gather_S50000x128_S800000x1_S800000x128_1_0_n_n_0_1_1128.siIdx (ix2 e q) ⟨List.idxOf (0 : Fin 2) gather_S50000x128_S800000x1_S800000x128_1_0_n_n_0_1_1128.startIndexMap, List.idxOf_lt_length_iff.2 row_started⟩
      = gather_S50000x128_S800000x1_S800000x128_1_0_n_n_0_1_1128.siIdx (ix2 e q') ⟨List.idxOf (0 : Fin 2) gather_S50000x128_S800000x1_S800000x128_1_0_n_n_0_1_1128.startIndexMap, List.idxOf_lt_length_iff.2 row_started⟩ :=
    funext fun b => Fin.ext (by
      match b with
      | ⟨0, _⟩ => rfl
      | ⟨1, _⟩ => rfl)
  rw [hsi]

/-- The operand column read at result index `(e, q)` is `q`. -/
theorem gather_col (idx : IVec S800000x1 32) (e : Fin 800000) (q : Fin 128) :
    (gather_S50000x128_S800000x1_S800000x128_1_0_n_n_0_1_1128.operandIdx (ix2 e q) idx 1).val = q.val := by
  show gather_S50000x128_S800000x1_S800000x128_1_0_n_n_0_1_1128.start (ix2 e q) idx 1 + gather_S50000x128_S800000x1_S800000x128_1_0_n_n_0_1_1128.batchCoord (ix2 e q) 1 + gather_S50000x128_S800000x1_S800000x128_1_0_n_n_0_1_1128.offCoord (ix2 e q) 1 = q.val
  rw [GatherDims.batchCoord_eq_zero _ _ _ (batch_free 1)]
  unfold GatherDims.start GatherDims.offCoord
  rw [dif_neg col_not_started, dif_pos col_kept]
  simp only [Nat.zero_add, Nat.add_zero]
  rfl

/-! ## The reference's products are row products -/

theorem upper_product (A : FVec Ideal S800000x128 .f32) (B : FVec Ideal S128x128 .f32) :
    Host.dotGeneral dot_S800000x128_S128x128_S800000x128_1_0_0_1_n_n none A B = rowsTimes A B :=
  dotGeneral_eq_rowsTimes dot_S800000x128_S128x128_S800000x128_1_0_0_1_n_n none rfl rfl Read.lhs_main_v13_0 Read.lhs_main_v13_1 Read.rhs_main_v13_0 Read.rhs_main_v13_1 A B

theorem lower_product (A : FVec Ideal S800000x16 .f32) (B : FVec Ideal S16x128 .f32) :
    Host.dotGeneral dot_S800000x16_S16x128_S800000x128_1_0_0_1_n_n none A B = rowsTimes A B :=
  dotGeneral_eq_rowsTimes dot_S800000x16_S16x128_S800000x128_1_0_0_1_n_n none rfl rfl Read.lhs_main_v14_0 Read.lhs_main_v14_1 Read.rhs_main_v14_0 Read.rhs_main_v14_1 A B

/-- Taking the source rows and multiplying commute. -/
theorem rows_then_product (X : FVec Ideal S50000x128 .f32) (B : FVec Ideal S128x128 .f32) (idx : IVec S800000x1 32) :
    Host.dotGeneral dot_S800000x128_S128x128_S800000x128_1_0_0_1_n_n none (Host.gather gather_S50000x128_S800000x1_S800000x128_1_0_n_n_0_1_1128 X idx) B = Host.gather gather_S50000x128_S800000x1_S800000x128_1_0_n_n_0_1_1128 (rowsTimes X B) idx := by
  rw [upper_product]
  exact (gather_rowsTimes gather_S50000x128_S800000x1_S800000x128_1_0_n_n_0_1_1128 gather_row gather_col X B idx).symm

/-! ## The bias, in its two layouts, and the clamp -/

/-- The bias as a one-row matrix read at its column is the bias vector spread over the rows. -/
theorem bias_forms (A : FVec Ideal S50000x128 .f32) (b : FVec Ideal S128 .f32) (h : S128.ShapeCasts S1x128) :
    plusOneRow A (shapeCast S1x128 b h)
      = addf A (broadcastInDim S50000x128 ![0, 1] bcast_S1x128_S50000x128_0_1 (broadcastInDim S1x128 ![1] bcast_S128_S1x128_1 b)) := by
  funext j
  obtain ⟨p, o, rfl⟩ : ∃ (p : Fin 50000) (o : Fin 128), j = ix2 p o := ⟨j 0, j 1, eq_ix2 j⟩
  have h1 : shapeCast S1x128 b h (ix2 (0 : Fin 1) o) = b (ix1 o) :=
    shapeCast_apply b h (ix2 (0 : Fin 1) o) (ix1 o) (by
      rw [Shape.rowMajor_val_one, Shape.rowMajor_val_two]
      show o.val = 0 * 128 + o.val
      omega)
  have h2 : broadcastInDim S1x128 ![1] bcast_S128_S1x128_1 b (ix2 (0 : Fin 1) o) = b (ix1 o) :=
    broadcastInDim_apply _ bcast_S128_S1x128_1 b (ix2 (0 : Fin 1) o) (ix1 o) (fun a => match a with
      | ⟨0, _⟩ => by show o.val = if (128 : Nat) = 1 then 0 else o.val; rw [if_neg (by decide)])
  have h3 : broadcastInDim S50000x128 ![0, 1] bcast_S1x128_S50000x128_0_1 (broadcastInDim S1x128 ![1] bcast_S128_S1x128_1 b) (ix2 p o)
      = broadcastInDim S1x128 ![1] bcast_S128_S1x128_1 b (ix2 (0 : Fin 1) o) :=
    broadcastInDim_apply _ bcast_S1x128_S50000x128_0_1 _ (ix2 p o) (ix2 (0 : Fin 1) o) (fun a => match a with
      | ⟨0, _⟩ => by show (0 : Nat) = if (1 : Nat) = 1 then 0 else _; rw [if_pos rfl]
      | ⟨1, _⟩ => by show o.val = if (128 : Nat) = 1 then 0 else o.val; rw [if_neg (by decide)])
  show A (ix2 p o) + shapeCast S1x128 b h (ix2 (0 : Fin 1) o) = A (ix2 p o) + _
  rw [h1, h3, h2]

/-- The clamp at the float zero is the maximum with the zero array. -/
theorem clamp_form (A : FVec Ideal S50000x128 .f32) : clampZero A = maximumf A zeros := rfl

/-! ## One function -/

open Cert.KernelIdeal.Chain in
/-- A layer of the kernel program is a layer of the reference. -/
theorem layer_eq (X : FVec Ideal S50000x128 .f32) (ei : IVec S2x800000 32) (EA : FVec Ideal S800000x16 .f32)
    (W : FVec Ideal S144x128 .f32) (b : FVec Ideal S128 .f32) :
    Cert.KernelIdeal.Chain.layer X ei EA W b = refLayer X ei EA W b := by
  unfold Cert.KernelIdeal.Chain.layer refLayer
  rw [bias_forms, rows_then_product, lower_product]
  rfl

/-- THE BRIDGE: the kernel program's value and the reference's are one function of the seven arguments. -/
theorem value_eq (x : FVec Ideal S50000x128 .f32) (ei : IVec S2x800000 32) (ea : FVec Ideal S800000x16 .f32)
    (W1 : FVec Ideal S144x128 .f32) (b1 : FVec Ideal S128 .f32) (W2 : FVec Ideal S144x128 .f32) (b2 : FVec Ideal S128 .f32) :
    Cert.KernelIdeal.Chain.value x ei ea W1 b1 W2 b2 = refValue x ei ea W1 b1 W2 b2 := by
  unfold Cert.KernelIdeal.Chain.value refValue
  rw [layer_eq, layer_eq, clamp_form]

/-! ## The reference's run, its result named -/

/-- Every weakly fair execution of the reference terminates with its result at `refValue` of the arguments as launched,
    the arguments unchanged: the generated run, whose result term is `refValue` unfolded. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ fun r => ∀ c : Dev nD,
      r.2.mem ((c.tc : Thread nD τ).loc main_v40)
        = refValue (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
            (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  Cert.ReferenceIdeal.Value.run (F := Ideal) m' ρ'

end Cert.Bridge

end
-- ==== Proof.lean ====
/-
  The certificate: the two-layer edge convolution computed by six Pallas kernels among host operations equals its jnp
  reference over the extended reals, and the kernel program is its own idealization.

  Frames. The kernel program's frame, at the word level and at the ideal values, is generated whole. The reference has
  no kernel: its frame is its generated run with the result dropped.
  Preserves. The ideal pass rewrote nothing, so the conjunct is `True`.
  Algebraic. The kernel program's result is `Chain.value` of the arguments as launched: the generated frame's launch,
  called again with the result buffer named (RunNamed), gives the buffer at the last boundary's contents, and KernelValue
  composes the six regions' result arrays and the host stretches between them into that one function. The reference's
  result is `Bridge.refValue` of its arguments, which is its generated run's term. The two functions are equal
  (`Bridge.value_eq`): the one difference is that the reference takes the source rows before the node projection and
  the kernel after it, and a row of a product depends on the same row of the left factor only. The memories agree on
  the arguments, so the results agree. No algebraic law needs finiteness; the precondition is not opened.
-/
import proofs.«149655_j77962246357191_1_alg».proof.Defs
import proofs.«149655_j77962246357191_1_alg».proof.Proof.Gen.Kernel
import proofs.«149655_j77962246357191_1_alg».proof.Proof.Gen.Kernel.Frame
import proofs.«149655_j77962246357191_1_alg».proof.Proof.Gen.KernelIdeal
import proofs.«149655_j77962246357191_1_alg».proof.Proof.Gen.KernelIdeal.Frame
import proofs.«149655_j77962246357191_1_alg».proof.Proof.Gen.ReferenceIdeal
import proofs.«149655_j77962246357191_1_alg».proof.Proof.Gen.ReferenceIdeal.Run
import proofs.«149655_j77962246357191_1_alg».proof.Proof.Gen.Pre_finite_inputs
import proofs.«149655_j77962246357191_1_alg».proof.Proof.RunNamed
import proofs.«149655_j77962246357191_1_alg».proof.Proof.KernelValue
import proofs.«149655_j77962246357191_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both programs end with `Chain.value` of the kernel program's arguments: the kernel program by its named run and
    the composed value, the reference by its run, the bridge, and the memories' agreement on the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Chain.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.Bridge.ref_run m' ρ')
    obtain ⟨a0, a1, a2, a3, a4, a5, a6⟩ := hagree c
    rw [a0, a1, a2, a3, a4, a5, a6]
    exact (Cert.Bridge.value_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
